-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4x16x4096 : S_.BroadcastsInDim S4x16x4096 (![] : Fin 0 → Fin S4x16x4096.rank)
  reducesTo_S4x16x4096_S_d0_1_2 : S4x16x4096.ReducesTo [0, 1, 2] S_
  bcast_S_S4x4096x16 : S_.BroadcastsInDim S4x4096x16 (![] : Fin 0 → Fin S4x4096x16.rank)
  reducesTo_S4x4096x16_S_d0_1_2 : S4x4096x16.ReducesTo [0, 1, 2] S_
  bcast_S_S4 : S_.BroadcastsInDim S4 (![] : Fin 0 → Fin S4.rank)
  reducesTo_S4_S_d0 : S4.ReducesTo [0] S_
  bcast_S_S4x16 : S_.BroadcastsInDim S4x16 (![] : Fin 0 → Fin S4x16.rank)
  reducesTo_S4x16_S_d0_1 : S4x16.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S4x4096x16 .f32) (main_arg8 : FVec F S4x16 .f32) (main_arg9 : FVec F S4x4096 .f32) (main_arg10 : FVec F S4 .f32) (main_v33 : IVec S_ 1) : IVec S_ 1 :=
  let main_v34 : FVec F S4x4096x16 .f32 := Host.absf main_arg7
  let main_cst_12 : FVec F S_ .f32 := constant S_ .f32 0x7F800000#32
  let main_v35 : FVec F S4x4096x16 .f32 := broadcastInDim S4x4096x16 ![] bcast_S_S4x4096x16 main_cst_12
  let main_v36 : IVec S4x4096x16 1 := cmpf .olt main_v34 main_v35
  let main_c_13 : IVec S_ 1 := constantI S_ 1 1#1
  let main_v37 : IVec S_ 1 := (fun x v => Host.reduce IntOp.andi x v reducesTo_S4x4096x16_S_d0_1_2 h_S_) main_v36 main_c_13
  let main_v38 : IVec S_ 1 := andi main_v33 main_v37
  let main_v39 : FVec F S4x16 .f32 := Host.absf main_arg8
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  let main_v44 : FVec F S4x4096 .f32 := Host.absf main_arg9
  let main_cst_16 : FVec F S_ .f32 := constant S_ .f32 0x7F800000#32
  let main_v45 : FVec F S4x4096 .f32 := broadcastInDim S4x4096 ![] bcast_S_S4x4096 main_cst_16
  let main_v46 : IVec S4x4096 1 := cmpf .olt main_v44 main_v45
  let main_c_17 : IVec S_ 1 := constantI S_ 1 1#1
  let main_v47 : IVec S_ 1 := (fun x v => Host.reduce IntOp.andi x v reducesTo_S4x4096_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S4x4096x16 .f32) (main_arg5 : FVec F S4 .f32) (main_arg6 : FVec F S4x16x4096 .f32) (main_arg7 : FVec F S4x4096x16 .f32) (main_arg8 : FVec F S4x16 .f32) (main_arg9 : FVec F S4x4096 .f32) (main_arg10 : FVec F S4 .f32) (main_v13 : IVec S_ 1) (main_v16 : IVec S4x16x4096 1) : IVec S_ 1 :=
  let main_c_5 : IVec S_ 1 := constantI S_ 1 1#1
  let main_v17 : IVec S_ 1 := (fun x v => Host.reduce IntOp.andi x v reducesTo_S4x16x4096_S_d0_1_2 h_S_) main_v16 main_c_5
  let main_v18 : IVec S_ 1 := andi main_v13 main_v17
  let main_v19 : FVec F S4x4096x16 .f32 := Host.absf main_arg4
  let main_cst_6 : FVec F S_ .f32 := constant S_ .f32 0x7F800000#32
  let main_v20 : FVec F S4x4096x16 .f32 := broadcastInDim S4x4096x16 ![] bcast_S_S4x4096x16 main_cst_6
  let main_v21 : IVec S4x4096x16 1 := cmpf .olt main_v19 main_v20
  let main_c_7 : IVec S_ 1 := constantI S_ 1 1#1
  let main_v22 : IVec S_ 1 := (fun x v => Host.reduce IntOp.andi x v reducesTo_S4x4096x16_S_d0_1_2 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x16x4096 .f32 := Host.absf main_arg6
  let main_cst_10 : FVec F S_ .f32 := constant S_ .f32 0x7F800000#32
  let main_v30 : FVec F S4x16x4096 .f32 := broadcastInDim S4x16x4096 ![] bcast_S_S4x16x4096 main_cst_10
  let main_v31 : IVec S4x16x4096 1 := cmpf .olt main_v29 main_v30
  let main_c_11 : IVec S_ 1 := constantI S_ 1 1#1
  let main_v32 : IVec S_ 1 := (fun x v => Host.reduce IntOp.andi x v reducesTo_S4x16x4096_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x4096 .f32) (main_arg1 : FVec F S4096x4096 .f32) (main_arg2 : FVec F S4096 .f32) (main_arg3 : FVec F S4x16x4096 .f32) (main_arg4 : FVec F S4x4096x16 .f32) (main_arg5 : FVec F S4 .f32) (main_arg6 : FVec F S4x16x4096 .f32) (main_arg7 : FVec F S4x4096x16 .f32) (main_arg8 : FVec F S4x16 .f32) (main_arg9 : FVec F S4x4096 .f32) (main_arg10 : FVec F S4 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4x16x4096 .f32 := Host.absf main_arg3
  let main_cst_4 : FVec F S_ .f32 := constant S_ .f32 0x7F800000#32
  let main_v15 : FVec F S4x16x4096 .f32 := broadcastInDim S4x16x4096 ![] bcast_S_S4x16x4096 main_cst_4
  let main_v16 : IVec S4x16x4096 1 := cmpf .olt main_v14 main_v15
  fn_part1 (F := F) main_arg4 main_arg5 main_arg6 main_arg7 main_arg8 main_arg9 main_arg10 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S4x1x1 : Shape := ⟨3, ![4, 1, 1]⟩
abbrev S8x16x4096 : Shape := ⟨3, ![8, 16, 4096]⟩
abbrev S4x1x16 : Shape := ⟨3, ![4, 1, 16]⟩
abbrev S4x4096x1 : Shape := ⟨3, ![4, 4096, 1]⟩
abbrev S8x4096x16 : Shape := ⟨3, ![8, 4096, 16]⟩
abbrev S1x4096 : Shape := ⟨2, ![1, 4096]⟩
abbrev S1024x1024 : Shape := ⟨2, ![1024, 1024]⟩
abbrev S1x16x1024 : Shape := ⟨3, ![1, 16, 1024]⟩
abbrev S1x1024x16 : Shape := ⟨3, ![1, 1024, 16]⟩
abbrev S1x1024 : Shape := ⟨2, ![1, 1024]⟩
abbrev S1024x16 : Shape := ⟨2, ![1024, 16]⟩
abbrev S16x1024 : Shape := ⟨2, ![16, 1024]⟩

abbrev nBuf : Space → Nat
  | .hbm => 29
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S4, .f32⟩
  | .hbm, ⟨6, _⟩ => ⟨S4x16x4096, .f32⟩
  | .hbm, ⟨7, _⟩ => ⟨S4x4096x16, .f32⟩
  | .hbm, ⟨8, _⟩ => ⟨S4x16, .f32⟩
  | .hbm, ⟨9, _⟩ => ⟨S4x4096, .f32⟩
  | .hbm, ⟨10, _⟩ => ⟨S4, .f32⟩
  | .hbm, ⟨11, _⟩ => ⟨S4x1x1, .f32⟩
  | .hbm, ⟨12, _⟩ => ⟨S4x16x4096, .f32⟩
  | .hbm, ⟨13, _⟩ => ⟨S4x16x4096, .f32⟩
  | .hbm, ⟨14, _⟩ => ⟨S8x16x4096, .f32⟩
  | .hbm, ⟨15, _⟩ => ⟨S4x1x1, .f32⟩
  | .hbm, ⟨16, _⟩ => ⟨S4x4096x16, .f32⟩
  | .hbm, ⟨17, _⟩ => ⟨S4x4096x16, .f32⟩
  | .hbm, ⟨18, _⟩ => ⟨S4x1x16, .f32⟩
  | .hbm, ⟨19, _⟩ => ⟨S4x4096x16, .f32⟩
  | .hbm, ⟨20, _⟩ => ⟨S4x4096x16, .f32⟩
  | .hbm, ⟨21, _⟩ => ⟨S4x4096x1, .f32⟩
  | .hbm, ⟨22, _⟩ => ⟨S4x4096x16, .f32⟩
  | .hbm, ⟨23, _⟩ => ⟨S4x4096x16, .f32⟩
  | .hbm, ⟨24, _⟩ => ⟨S8x4096x16, .f32⟩
  | .hbm, ⟨25, _⟩ => ⟨S8x16x4096, .bf16⟩
  | .hbm, ⟨26, _⟩ => ⟨S8x4096x16, .bf16⟩
  | .hbm, ⟨27, _⟩ => ⟨S1x4096, .f32⟩
  | .hbm, ⟨28, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x16x1024, .bf16⟩
  | .local _ .vmem, ⟨5, _⟩ => ⟨S1x16x1024, .bf16⟩
  | .local _ .vmem, ⟨6, _⟩ => ⟨S1x1024x16, .bf16⟩
  | .local _ .vmem, ⟨7, _⟩ => ⟨S1x1024x16, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S4_S4x1x1_0 : S4.BroadcastsInDim S4x1x1 (![0] : Fin 1 → Fin S4x1x1.rank)
  bcast_S4x1x1_S4x16x4096_0_1_2 : S4x1x1.BroadcastsInDim S4x16x4096 (![0, 1, 2] : Fin 3 → Fin S4x16x4096.rank)
  concatenates_S4x16x4096_S4x16x4096_S8x16x4096_d0 : Shape.Concatenates [S4x16x4096, S4x16x4096] S8x16x4096 0
  bcast_S4x1x1_S4x4096x16_0_1_2 : S4x1x1.BroadcastsInDim S4x4096x16 (![0, 1, 2] : Fin 3 → Fin S4x4096x16.rank)
  bcast_S4x16_S4x1x16_0_2 : S4x16.BroadcastsInDim S4x1x16 (![0, 2] : Fin 2 → Fin S4x1x16.rank)
  bcast_S4x1x16_S4x4096x16_0_1_2 : S4x1x16.BroadcastsInDim S4x4096x16 (![0, 1, 2] : Fin 3 → Fin S4x4096x16.rank)
  bcast_S4x4096_S4x4096x1_0_1 : S4x4096.BroadcastsInDim S4x4096x1 (![0, 1] : Fin 2 → Fin S4x4096x1.rank)
  bcast_S4x4096x1_S4x4096x16_0_1_2 : S4x4096x1.BroadcastsInDim S4x4096x16 (![0, 1, 2] : Fin 3 → Fin S4x4096x16.rank)
  concatenates_S4x4096x16_S4x4096x16_S8x4096x16_d0 : Shape.Concatenates [S4x4096x16, S4x4096x16] S8x4096x16 0
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1024.size a ≤ S8x16x4096.size a
  hwx0_2 : ∀ i : grid0.Coords, EltTy.bits .bf16 = 32 ∨ (Rect.block (s := S8x16x4096) S1x16x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x16.size a ≤ S8x4096x16.size a
  hwx0_3 : ∀ i : grid0.Coords, EltTy.bits .bf16 = 32 ∨ (Rect.block (s := S8x4096x16) S1x1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S4x16x4096 : Shape := ⟨3, ![4, 16, 4096]⟩
abbrev S4x4096x16 : Shape := ⟨3, ![4, 4096, 16]⟩
abbrev S4 : Shape := ⟨1, ![4]⟩
abbrev S4x16 : Shape := ⟨2, ![4, 16]⟩
abbrev S4x4096 : Shape := ⟨2, ![4, 4096]⟩
abbrev S1x4096 : Shape := ⟨2, ![1, 4096]⟩
abbrev S8x2048x4096 : Shape := ⟨3, ![8, 2048, 4096]⟩
abbrev S4x2048x4096 : Shape := ⟨3, ![4, 2048, 4096]⟩
abbrev S4x2048x16 : Shape := ⟨3, ![4, 2048, 16]⟩
abbrev S4x1x1 : Shape := ⟨3, ![4, 1, 1]⟩
abbrev S4x1x16 : Shape := ⟨3, ![4, 1, 16]⟩
abbrev S4x1x4096 : Shape := ⟨3, ![4, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4x16x4096, .f32⟩
  | .hbm, ⟨4, _⟩ => ⟨S4x4096x16, .f32⟩
  | .hbm, ⟨5, _⟩ => ⟨S4, .f32⟩
  | .hbm, ⟨6, _⟩ => ⟨S4x16x4096, .f32⟩
  | .hbm, ⟨7, _⟩ => ⟨S4x4096x16, .f32⟩
  | .hbm, ⟨8, _⟩ => ⟨S4x16, .f32⟩
  | .hbm, ⟨9, _⟩ => ⟨S4x4096, .f32⟩
  | .hbm, ⟨10, _⟩ => ⟨S4, .f32⟩
  | .hbm, ⟨11, _⟩ => ⟨S4096x4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S8x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S4x1x1, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x1x1, .f32⟩
  | .hbm, ⟨25, _⟩ => ⟨S4x2048x4096, .f32⟩
  | .hbm, ⟨26, _⟩ => ⟨S4x2048x4096, .f32⟩
  | .hbm, ⟨27, _⟩ => ⟨S4x2048x16, .f32⟩
  | .hbm, ⟨28, _⟩ => ⟨S4x1x16, .f32⟩
  | .hbm, ⟨29, _⟩ => ⟨S4x2048x16, .f32⟩
  | .hbm, ⟨30, _⟩ => ⟨S4x2048x16, .f32⟩
  | .hbm, ⟨31, _⟩ => ⟨S4x2048x4096, .f32⟩
  | .hbm, ⟨32, _⟩ => ⟨S4x1x4096, .f32⟩
  | .hbm, ⟨33, _⟩ => ⟨S4x2048x4096, .f32⟩
  | .hbm, ⟨34, _⟩ => ⟨S4x2048x4096, .f32⟩
  | .hbm, ⟨35, _⟩ => ⟨S8x2048x4096, .f32⟩
  | .hbm, ⟨36, _⟩ => ⟨S16384x4096, .f32⟩
  | .hbm, ⟨37, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S8x2048x4096 : S16384x4096.ShapeCasts S8x2048x4096
  slices_S8x2048x4096_S4x2048x4096_0_0_0 : S8x2048x4096.Slices ![0, 0, 0] S4x2048x4096
  bcast_S4_S4x1x1_0 : S4.BroadcastsInDim S4x1x1 (![0] : Fin 1 → Fin S4x1x1.rank)
  bcast_S4x1x1_S4x2048x4096_0_1_2 : S4x1x1.BroadcastsInDim S4x2048x4096 (![0, 1, 2] : Fin 3 → Fin S4x2048x4096.rank)
  slices_S8x2048x4096_S4x2048x4096_4_0_0 : S8x2048x4096.Slices ![4, 0, 0] S4x2048x4096
  bcast_S4x16_S4x1x16_0_2 : S4x16.BroadcastsInDim S4x1x16 (![0, 2] : Fin 2 → Fin S4x1x16.rank)
  bcast_S4x1x16_S4x2048x16_0_1_2 : S4x1x16.BroadcastsInDim S4x2048x16 (![0, 1, 2] : Fin 3 → Fin S4x2048x16.rank)
  bcast_S4x4096_S4x1x4096_0_2 : S4x4096.BroadcastsInDim S4x1x4096 (![0, 2] : Fin 2 → Fin S4x1x4096.rank)
  bcast_S4x1x4096_S4x2048x4096_0_1_2 : S4x1x4096.BroadcastsInDim S4x2048x4096 (![0, 1, 2] : Fin 3 → Fin S4x2048x4096.rank)
  concatenates_S4x2048x4096_S4x2048x4096_S8x2048x4096_d0 : Shape.Concatenates [S4x2048x4096, S4x2048x4096] S8x2048x4096 0
  shapeCasts_S8x2048x4096_S16384x4096 : S8x2048x4096.ShapeCasts S16384x4096
  dot_S16384x4096_S4096x4096_S16384x4096_1_0_0_1_n_n_wf : DotDims.WF S16384x4096 S4096x4096 S16384x4096 [1] [0] [0] [1] [] []
  dot_S4x2048x4096_S4x16x4096_S4x2048x16_2_2_1_1_0_0_wf : DotDims.WF S4x2048x4096 S4x16x4096 S4x2048x16 [2] [2] [1] [1] [0] [0]
  dot_S4x2048x16_S4x4096x16_S4x2048x4096_2_2_1_1_0_0_wf : DotDims.WF S4x2048x16 S4x4096x16 S4x2048x4096 [2] [2] [1] [1] [0] [0]

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf
def dot_S4x2048x4096_S4x16x4096_S4x2048x16_2_2_1_1_0_0 : DotDims S4x2048x4096 S4x16x4096 S4x2048x16 where
  lhsContracting := [2]
  rhsContracting := [2]
  lhsNonContracting := [1]
  rhsNonContracting := [1]
  lhsBatch := [0]
  rhsBatch := [0]
  wf := dot_S4x2048x4096_S4x16x4096_S4x2048x16_2_2_1_1_0_0_wf
def dot_S4x2048x16_S4x4096x16_S4x2048x4096_2_2_1_1_0_0 : DotDims S4x2048x16 S4x4096x16 S4x2048x4096 where
  lhsContracting := [2]
  rhsContracting := [2]
  lhsNonContracting := [1]
  rhsNonContracting := [1]
  lhsBatch := [0]
  rhsBatch := [0]
  wf := dot_S4x2048x16_S4x4096x16_S4x2048x4096_2_2_1_1_0_0_wf

class Facts : Prop extends Facts₀ where

variable [Facts]
-- ==== Proof.Spec.lean ====
/-
  The function both programs compute, entry by entry, over the extended reals.

  A token row `n` (of 16384) belongs to segment `g = n / 2048` (of 8).  Segments 0..3 carry a low-rank adapter
  with factors `la[g]` (16 x 4096), `lb[g]` (4096 x 16) and a scalar `ls[g]`; segments 4..7 carry one with factors
  `va[g-4]`, `vb[g-4]`, a scalar `vs[g-4]`, a rank-wise scale `vd[g-4]` (16) and an output-wise scale `vbv[g-4]` (4096).

  `folded` is the arrangement in which every scale has been multiplied INTO the two factors first
  (`afac`, `bfac`), so that entry (n, o) is

      (sum_k x(n,k) W(o,k)  +  sum_r (sum_k x(n,k) afac(g,r,k)) bfac(g,o,r))  +  bias(o).

  `staged` is the arrangement in which the scales are applied to the intermediate results, one after the other,

      (sum_k x(n,k) W(o,k) + bias(o))  +  delta(n,o),
      delta = (sum_r (sum_i x(n,i) la(g,r,i)) lb(g,o,r)) ls(g)                                   for g < 4,
      delta = (sum_r ((sum_i (x(n,i) vs(g')) va(g',r,i)) vd(g',r)) vb(g',o,r)) vbv(g',o)          for g >= 4.

  The two agree whenever every entry of every argument is a real number: then all sums and products are real, a
  common factor moves across a finite sum (distributivity), and the three summands of the outer sum commute.  On
  infinite entries distributivity fails, which is why the hypothesis is there.
-/
import Idealize.ShloMosaic.PureOps.Ideal
import Idealize.ShloMosaic.PureOps.Ideal.Laws
import Idealize.ShloMosaic.Lib.ValueIdx

noncomputable section

namespace Cert.Adapter

open Idealize.ShloMosaic Idealize.ShloMosaic.ValueIdx

/-- Every entry of `f` is a real number. -/
def IsReal {ι : Type} (f : ι → EReal) : Prop := ∀ i, ∃ r : ℝ, f i = (r : EReal)

theorem IsReal.eq_coe {ι : Type} {f : ι → EReal} (h : IsReal f) : ∃ d : ι → ℝ, f = fun i => (d i : EReal) :=
  ⟨fun i => (h i).choose, funext fun i => (h i).choose_spec⟩

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The segment of a token row. -/
def seg (n : Fin 16384) : Fin 8 := ⟨n.val / 2048, by have := n.isLt; omega⟩

abbrev A3 : Shape := ⟨3, ![4, 16, 4096]⟩
abbrev B3 : Shape := ⟨3, ![4, 4096, 16]⟩
abbrev X2 : Shape := ⟨2, ![16384, 4096]⟩
abbrev W2 : Shape := ⟨2, ![4096, 4096]⟩
abbrev V1 : Shape := ⟨1, ![4096]⟩
abbrev S1 : Shape := ⟨1, ![4]⟩
abbrev D2 : Shape := ⟨2, ![4, 16]⟩
abbrev E2 : Shape := ⟨2, ![4, 4096]⟩

/-- The first factor with its scale folded in: `la` on segments 0..3, `va · vs` on segments 4..7. -/
def afac (la va : A3.Idx → EReal) (vs : S1.Idx → EReal) (g : Fin 8) (r : Fin 16) (k : Fin 4096) : EReal :=
  if h : g.val < 4 then la (ix3 (⟨g.val, h⟩ : Fin 4) r k)
  else va (ix3 (⟨g.val - 4, by have := g.isLt; omega⟩ : Fin 4) r k) * vs (ix1 (⟨g.val - 4, by have := g.isLt; omega⟩ : Fin 4))

/-- The second factor with its scales folded in: `lb · ls` on segments 0..3, `(vb · vd) · vbv` on segments 4..7. -/
def bfac (lb vb : B3.Idx → EReal) (ls : S1.Idx → EReal) (vd : D2.Idx → EReal) (vbv : E2.Idx → EReal)
    (g : Fin 8) (o : Fin 4096) (r : Fin 16) : EReal :=
  if h : g.val < 4 then lb (ix3 (⟨g.val, h⟩ : Fin 4) o r) * ls (ix1 (⟨g.val, h⟩ : Fin 4))
  else (vb (ix3 (⟨g.val - 4, by have := g.isLt; omega⟩ : Fin 4) o r) * vd (ix2 (⟨g.val - 4, by have := g.isLt; omega⟩ : Fin 4) r))
    * vbv (ix2 (⟨g.val - 4, by have := g.isLt; omega⟩ : Fin 4) o)

/-- Entry (n, o) with the scales folded into the factors. -/
def folded (x : X2.Idx → EReal) (w : W2.Idx → EReal) (bias : V1.Idx → EReal) (la : A3.Idx → EReal) (lb : B3.Idx → EReal)
    (ls : S1.Idx → EReal) (va : A3.Idx → EReal) (vb : B3.Idx → EReal) (vd : D2.Idx → EReal) (vbv : E2.Idx → EReal)
    (vs : S1.Idx → EReal) (n : Fin 16384) (o : Fin 4096) : EReal :=
  ((∑ k : Fin 4096, x (ix2 n k) * w (ix2 o k))
    + ∑ r : Fin 16, (∑ k : Fin 4096, x (ix2 n k) * afac la va vs (seg n) r k) * bfac lb vb ls vd vbv (seg n) o r)
  + bias (ix1 o)

/-- The adapter's contribution to entry (n, o), the scales applied stage by stage. -/
def delta (x : X2.Idx → EReal) (la : A3.Idx → EReal) (lb : B3.Idx → EReal)
    (ls : S1.Idx → EReal) (va : A3.Idx → EReal) (vb : B3.Idx → EReal) (vd : D2.Idx → EReal) (vbv : E2.Idx → EReal)
    (vs : S1.Idx → EReal) (n : Fin 16384) (o : Fin 4096) : EReal :=
  if h : (seg n).val < 4 then
    (∑ r : Fin 16, (∑ i : Fin 4096, x (ix2 n i) * la (ix3 (⟨(seg n).val, h⟩ : Fin 4) r i)) * lb (ix3 (⟨(seg n).val, h⟩ : Fin 4) o r))
      * ls (ix1 (⟨(seg n).val, h⟩ : Fin 4))
  else
    (∑ r : Fin 16, ((∑ i : Fin 4096, (x (ix2 n i) * vs (ix1 (⟨(seg n).val - 4, by have := (seg n).isLt; omega⟩ : Fin 4)))
          * va (ix3 (⟨(seg n).val - 4, by have := (seg n).isLt; omega⟩ : Fin 4) r i))
        * vd (ix2 (⟨(seg n).val - 4, by have := (seg n).isLt; omega⟩ : Fin 4) r))
      * vb (ix3 (⟨(seg n).val - 4, by have := (seg n).isLt; omega⟩ : Fin 4) o r))
    * vbv (ix2 (⟨(seg n).val - 4, by have := (seg n).isLt; omega⟩ : Fin 4) o)

/-- Entry (n, o) with the scales applied stage by stage. -/
def staged (x : X2.Idx → EReal) (w : W2.Idx → EReal) (bias : V1.Idx → EReal) (la : A3.Idx → EReal) (lb : B3.Idx → EReal)
    (ls : S1.Idx → EReal) (va : A3.Idx → EReal) (vb : B3.Idx → EReal) (vd : D2.Idx → EReal) (vbv : E2.Idx → EReal)
    (vs : S1.Idx → EReal) (n : Fin 16384) (o : Fin 4096) : EReal :=
  ((∑ k : Fin 4096, x (ix2 n k) * w (ix2 o k)) + bias (ix1 o)) + delta x la lb ls va vb vd vbv vs n o

/-- On real arguments the two arrangements agree. -/
theorem folded_eq_staged (x : X2.Idx → EReal) (w : W2.Idx → EReal) (bias : V1.Idx → EReal) (la : A3.Idx → EReal) (lb : B3.Idx → EReal)
    (ls : S1.Idx → EReal) (va : A3.Idx → EReal) (vb : B3.Idx → EReal) (vd : D2.Idx → EReal) (vbv : E2.Idx → EReal)
    (vs : S1.Idx → EReal)
    (hx : IsReal x) (hw : IsReal w) (hb : IsReal bias) (hla : IsReal la) (hlb : IsReal lb) (hls : IsReal ls)
    (hva : IsReal va) (hvb : IsReal vb) (hvd : IsReal vd) (hvbv : IsReal vbv) (hvs : IsReal vs)
    (n : Fin 16384) (o : Fin 4096) :
    folded x w bias la lb ls va vb vd vbv vs n o = staged x w bias la lb ls va vb vd vbv vs n o := by
  obtain ⟨x, rfl⟩ := hx.eq_coe
  obtain ⟨w, rfl⟩ := hw.eq_coe
  obtain ⟨bias, rfl⟩ := hb.eq_coe
  obtain ⟨la, rfl⟩ := hla.eq_coe
  obtain ⟨lb, rfl⟩ := hlb.eq_coe
  obtain ⟨ls, rfl⟩ := hls.eq_coe
  obtain ⟨va, rfl⟩ := hva.eq_coe
  obtain ⟨vb, rfl⟩ := hvb.eq_coe
  obtain ⟨vd, rfl⟩ := hvd.eq_coe
  obtain ⟨vbv, rfl⟩ := hvbv.eq_coe
  obtain ⟨vs, rfl⟩ := hvs.eq_coe
  unfold folded staged delta afac bfac
  by_cases h : (seg n).val < 4
  · simp only [dif_pos h, ← EReal.coe_mul, ← coe_sum, ← EReal.coe_add]
    refine congrArg _ ?_
    rw [Finset.sum_mul]
    have e : ∀ r : Fin 16, (∑ k : Fin 4096, x (ix2 n k) * la (ix3 (⟨(seg n).val, h⟩ : Fin 4) r k))
          * (lb (ix3 (⟨(seg n).val, h⟩ : Fin 4) o r) * ls (ix1 (⟨(seg n).val, h⟩ : Fin 4)))
        = (∑ k : Fin 4096, x (ix2 n k) * la (ix3 (⟨(seg n).val, h⟩ : Fin 4) r k))
          * lb (ix3 (⟨(seg n).val, h⟩ : Fin 4) o r) * ls (ix1 (⟨(seg n).val, h⟩ : Fin 4)) := fun r => by ring
    simp only [e]
    ring
  · simp only [dif_neg h, ← EReal.coe_mul, ← coe_sum, ← EReal.coe_add]
    refine congrArg _ ?_
    rw [Finset.sum_mul]
    have e1 : ∀ r : Fin 16, (∑ k : Fin 4096, x (ix2 n k) * (va (ix3 (⟨(seg n).val - 4, by have := (seg n).isLt; omega⟩ : Fin 4) r k)
            * vs (ix1 (⟨(seg n).val - 4, by have := (seg n).isLt; omega⟩ : Fin 4))))
        = (∑ k : Fin 4096, x (ix2 n k) * va (ix3 (⟨(seg n).val - 4, by have := (seg n).isLt; omega⟩ : Fin 4) r k))
            * vs (ix1 (⟨(seg n).val - 4, by have := (seg n).isLt; omega⟩ : Fin 4)) := fun r => by
      rw [Finset.sum_mul]; exact Finset.sum_congr rfl fun k _ => by ring
    have e2 : ∀ r : Fin 16, (∑ k : Fin 4096, (x (ix2 n k) * vs (ix1 (⟨(seg n).val - 4, by have := (seg n).isLt; omega⟩ : Fin 4)))
            * va (ix3 (⟨(seg n).val - 4, by have := (seg n).isLt; omega⟩ : Fin 4) r k))
        = (∑ k : Fin 4096, x (ix2 n k) * va (ix3 (⟨(seg n).val - 4, by have := (seg n).isLt; omega⟩ : Fin 4) r k))
            * vs (ix1 (⟨(seg n).val - 4, by have := (seg n).isLt; omega⟩ : Fin 4)) := fun r => by
      rw [Finset.sum_mul]; exact Finset.sum_congr rfl fun k _ => by ring
    simp only [e1, e2]
    have e3 : ∀ a b c : ℝ, a + b + c = a + c + b := fun a b c => by ring
    rw [e3]
    refine congrArg _ (Finset.sum_congr rfl fun r _ => ?_)
    ring

end Cert.Adapter

end
-- ==== Proof.LibMatmulT.lean ====
/-
  A matrix product with the right operand contracted on its last axis, read at an index, over the extended reals.

  The dimension numbers "contract the left operand's second axis with the right operand's second axis, no batch
  axes" (`DotDims.transposedRhs M K N`) make entry `(p, q)` of the product the sum over `k` of
  `l (p, k) * r (q, k)`: row `p` of the left operand against row `q` of the right operand. Stated once for every size.
-/
import Idealize.ShloMosaic.PureOps.Ideal
import Idealize.ShloMosaic.PureOps.Ideal.Laws
import Idealize.ShloMosaic.Lib.ValueIdx

noncomputable section

namespace LibMatmulT

open Idealize.ShloMosaic Idealize.ShloMosaic.ValueIdx

variable {M K N : Nat}

/-- The left operand's row is the result's row. -/
theorem tr_lhs_0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem tr_lhs_1 (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row is the result's column. -/
theorem tr_rhs_0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem tr_rhs_1 (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- The sum over the contraction shape is the sum over `k : Fin K` of the two operands at `(p, k)` and `(q, k)`. -/
theorem tr_sum (l : (⟨2, ![M, K]⟩ : Shape).Idx → EReal) (r : (⟨2, ![N, K]⟩ : Shape).Idx → EReal) (p : Fin M) (q : Fin N) :
    ∑ c : (DotDims.transposedRhs M K N).contr.Idx,
        l ((DotDims.transposedRhs M K N).lhsIdx (ix2 p q) c) * r ((DotDims.transposedRhs M K N).rhsIdx (ix2 p q) c)
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-- The kernel's product into the zero accumulator, at entry `(p, q)`. -/
theorem matmul_zero_tr_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact tr_sum l r p q

end LibMatmulT

end
-- ==== Proof.KPay.lean ====
/-
  The kernel body's arithmetic, read at one entry over the extended reals.

  A change of float format is the identity on the extended reals, a shape cast between equal shapes too, and a
  matrix product with the right operand contracted on its last axis, accumulated into zero, is the sum over the
  contraction position of the products of the two rows.  So, entry by entry:

    * the reset values are 0;
    * the base accumulator's update is        acc(p,q) + sum_k x(p,k) w(q,k);
    * the hidden accumulator's update is      h(p,r)   + sum_k x(p,k) a(0,r,k);
    * the block written out at the last step  (acc(p,q) + sum_r h(p,r) b(0,q,r)) + bias(0,q).
-/
import proofs.«148881_j16733192585553_1_alg».proof.Proof.Gen.KernelIdeal.Skeleton
import proofs.«148881_j16733192585553_1_alg».proof.Proof.LibMatmulT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The base accumulator's reset value is zero everywhere. -/
theorem pay1_apply (i : S1024x1024.Idx) : (k0_pay1 (F := Ideal) i : EReal) = 0 := by
  unfold k0_pay1
  rw [shapeCast_self]
  exact Ideal.ofBits_zero_f32

/-- The hidden accumulator's reset value is zero everywhere. -/
theorem pay2_apply (i : S1024x16.Idx) : (k0_pay2 (F := Ideal) i : EReal) = 0 := by
  unfold k0_pay2
  rw [shapeCast_self]
  exact Ideal.ofBits_zero_f32

/-- The base accumulator's update: what it held plus row `p` of the token block against row `q` of the weight block. -/
theorem pay4_apply (v3 v5 v7 : Vec Ideal S1024x1024 .f32) (p q : Fin 1024) :
    (k0_pay4 v3 v5 v7 (ix2 p q) : EReal) = v7 (ix2 p q) + ∑ k : Fin 1024, v3 (ix2 p k) * v5 (ix2 q k) := by
  unfold k0_pay4 k0_pay3
  rw [shapeCast_self]
  exact congrArg (fun z : EReal => (v7 (ix2 p q) : EReal) + z)
    (LibMatmulT.matmul_zero_tr_apply (M := 1024) (K := 1024) (N := 1024) none
      (truncf .bf16 v3 bitsLt_bf16_f32 : FVec Ideal S1024x1024 .bf16) (truncf .bf16 v5 bitsLt_bf16_f32 : FVec Ideal S1024x1024 .bf16) p q)

/-- A rank-3 block with a leading unit axis, viewed as a matrix, reads (r, k) at (0, r, k). -/
theorem cast_a_apply (v13 : Vec Ideal S1x16x1024 .bf16) (r : Fin 16) (k : Fin 1024) :
    shapeCast S16x1024 v13 shapeCasts_S1x16x1024_S16x1024 (ix2 r k) = v13 (ix3 (0 : Fin 1) r k) :=
  (shapeCast_dropUnit_apply ![16, 1024] v13 shapeCasts_S1x16x1024_S16x1024 (ix2 r k)).trans
    (congrArg v13 (funext fun a => by
      match a with
      | ⟨0, _⟩ => rfl
      | ⟨1, _⟩ => rfl
      | ⟨2, _⟩ => rfl))

theorem cast_b_apply (v24 : Vec Ideal S1x1024x16 .bf16) (q : Fin 1024) (r : Fin 16) :
    shapeCast S1024x16 v24 shapeCasts_S1x1024x16_S1024x16 (ix2 q r) = v24 (ix3 (0 : Fin 1) q r) :=
  (shapeCast_dropUnit_apply ![1024, 16] v24 shapeCasts_S1x1024x16_S1024x16 (ix2 q r)).trans
    (congrArg v24 (funext fun a => by
      match a with
      | ⟨0, _⟩ => rfl
      | ⟨1, _⟩ => rfl
      | ⟨2, _⟩ => rfl))

/-- The hidden accumulator's update: what it held plus row `p` of the token block against row `r` of the first factor. -/
theorem pay5_apply (v3 : Vec Ideal S1024x1024 .f32) (v13 : Vec Ideal S1x16x1024 .bf16) (v15 : Vec Ideal S1024x16 .f32)
    (p : Fin 1024) (r : Fin 16) :
    (k0_pay5 v3 v13 v15 (ix2 p r) : EReal) = v15 (ix2 p r) + ∑ k : Fin 1024, v3 (ix2 p k) * v13 (ix3 (0 : Fin 1) r k) := by
  unfold k0_pay5 k0_pay3
  rw [shapeCast_self]
  refine (congrArg (fun z : EReal => (v15 (ix2 p r) : EReal) + z)
    (LibMatmulT.matmul_zero_tr_apply (M := 1024) (K := 1024) (N := 16) none
      (truncf .bf16 v3 bitsLt_bf16_f32 : FVec Ideal S1024x1024 .bf16)
      (shapeCast S16x1024 v13 shapeCasts_S1x16x1024_S16x1024 : FVec Ideal S16x1024 .bf16) p r)).trans ?_
  refine congrArg (fun z : EReal => (v15 (ix2 p r) : EReal) + z) (Finset.sum_congr rfl fun k _ => ?_)
  exact congrArg (fun z : EReal => (v3 (ix2 p k) : EReal) * z) (cast_a_apply v13 r k)

/-- The block written out: base accumulator plus the hidden rows against the second factor's rows, plus the bias row. -/
theorem pay6_apply (v24 : Vec Ideal S1x1024x16 .bf16) (v26 : Vec Ideal S1024x16 .f32) (v29 : Vec Ideal S1024x1024 .f32)
    (v31 : Vec Ideal S1x1024 .f32) (p q : Fin 1024) :
    (k0_pay6 v24 v26 v29 v31 (ix2 p q) : EReal)
      = (v29 (ix2 p q) + ∑ r : Fin 16, v26 (ix2 p r) * v24 (ix3 (0 : Fin 1) q r)) + v31 (ix2 (0 : Fin 1) q) := by
  unfold k0_pay6
  rw [shapeCast_self]
  have e1 : (FloatOps.matmul (F := Ideal) dot_S1024x16_S1024x16_S1024x1024_1_1_0_0_n_n none
        (truncf .bf16 v26 bitsLt_bf16_f32 : FVec Ideal S1024x16 .bf16)
        (shapeCast S1024x16 v24 shapeCasts_S1x1024x16_S1024x16 : FVec Ideal S1024x16 .bf16)
        (constant S1024x1024 .f32 0x00000000#32) (ix2 p q) : EReal)
      = ∑ r : Fin 16, v26 (ix2 p r) * v24 (ix3 (0 : Fin 1) q r) :=
    (LibMatmulT.matmul_zero_tr_apply (M := 1024) (K := 16) (N := 1024) none
      (truncf .bf16 v26 bitsLt_bf16_f32 : FVec Ideal S1024x16 .bf16)
      (shapeCast S1024x16 v24 shapeCasts_S1x1024x16_S1024x16 : FVec Ideal S1024x16 .bf16) p q).trans
      (Finset.sum_congr rfl fun r _ => congrArg (fun z : EReal => (v26 (ix2 p r) : EReal) * z) (cast_b_apply v24 q r))
  have e2 : (broadcastTo S1024x1024 v31 broadcasts_S1x1024_S1024x1024 (ix2 p q) : EReal) = v31 (ix2 (0 : Fin 1) q) :=
    broadcastTo_apply v31 broadcasts_S1x1024_S1024x1024 (ix2 p q) (ix2 (0 : Fin 1) q) fun a => by
      match a with
      | ⟨0, _⟩ => rfl
      | ⟨1, _⟩ => rfl
  show ((v29 (ix2 p q) : EReal) + FloatOps.matmul (F := Ideal) dot_S1024x16_S1024x16_S1024x1024_1_1_0_0_n_n none
        (truncf .bf16 v26 bitsLt_bf16_f32 : FVec Ideal S1024x16 .bf16)
        (shapeCast S1024x16 v24 shapeCasts_S1x1024x16_S1024x16 : FVec Ideal S1024x16 .bf16)
        (constant S1024x1024 .f32 0x00000000#32) (ix2 p q))
      + broadcastTo S1024x1024 v31 broadcasts_S1x1024_S1024x1024 (ix2 p q) = _
  rw [e1, e2]

end Cert.KernelIdeal.Pay

end
-- ==== Proof.KPieces.lean ====
/-
  What each control case of the kernel body leaves in the two accumulators and in the output block, as the body's
  own arithmetic terms.

  At the first step of a reduction run (case A) the body stores zero into an accumulator and then stores the update
  over it; the later store covers the earlier one, and the update reads back the zero it has just stored.  At the
  other steps (cases B and C) the update is over what the step before left.  At the last step (case C) the output
  block is written from the accumulators the same step has just updated.
-/
import proofs.«148881_j16733192585553_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- A whole two-dimensional block sits at offset zero in each coordinate. -/
private theorem hz : (![0, 0] : Fin 2 → Nat) = fun _ => 0 := funext fun a => by fin_cases a <;> rfl

/-- A whole three-dimensional block sits at offset zero in each coordinate. -/
private theorem hz3 : (![0, 0, 0] : Fin 3 → Nat) = fun _ => 0 := funext fun a => by fin_cases a <;> rfl

/-! Each statement below is read the same way.  The pieces a step stores into a buffer cover it, so what the buffer
    holds afterwards is the pieces' own overlay, whatever it held before.  Every store is of the whole block at offset
    zero, so the overlay is the payload of the last store.  Every load is of a whole block at offset zero: of an input
    or of an accumulator not yet stored into it reads the contents handed in; of an accumulator already stored into by
    this step it reads the stored payload back. -/

/-- First step: the base accumulator ends at the update over the zero just stored. -/
theorem sout0_A_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .f32) (x1 : Vec F S1024x1024 .f32) (x2 : Vec F S1x16x1024 .bf16) (x3 : Vec F S1x1024x16 .bf16) (x4 : Vec F S1x1024 .f32) :
    sout0_A_0 (F := F) c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  -- the update is stored over the zero block, and its third operand is that zero block read back
  rw [View.canon_cons_unit_zero (S := S1024x1024) hz, View.readCov_unit_zero (S := S1024x1024) _ hz]
  simp only [View.readAt_eq_ld, harg3.read_unread, harg4.read_unread, View.ld_unit_zero (S := S1024x1024) hz]

/-- First step: the hidden accumulator ends at the update over the zero just stored. -/
theorem sout0_A_1_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .f32) (x1 : Vec F S1024x1024 .f32) (x2 : Vec F S1x16x1024 .bf16) (x3 : Vec F S1x1024x16 .bf16) (x4 : Vec F S1x1024 .f32) :
    sout0_A_1 (F := F) c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  -- the update is stored over the zero block, and its third operand is that zero block read back
  rw [View.canon_cons_unit_zero (S := S1024x16) hz, View.readCov_unit_zero (S := S1024x16) _ hz]
  simp only [View.readAt_eq_ld, harg3.read_unread, harg5.read_unread, View.ld_unit_zero (S := S1024x1024) hz,
    View.ld_unit_zero (S := S1x16x1024) hz3]

/-- Middle step: the base accumulator ends at the update over what the step before left. -/
theorem sout0_B_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .f32) (x1 : Vec F S1024x1024 .f32) (x2 : Vec F S1x16x1024 .bf16) (x3 : Vec F S1x1024x16 .bf16) (x4 : Vec F S1x1024 .f32) (xs0 : Vec F S1024x1024 .f32) (xs1 : Vec F S1024x16 .f32) :
    sout0_B_0 (F := F) c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x1024) hz]
  simp only [View.readAt_eq_ld, harg3.read_unread, harg4.read_unread, harg9.read_unread,
    View.ld_unit_zero (S := S1024x1024) hz]

/-- Middle step: the hidden accumulator ends at the update over what the step before left. -/
theorem sout0_B_1_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .f32) (x1 : Vec F S1024x1024 .f32) (x2 : Vec F S1x16x1024 .bf16) (x3 : Vec F S1x1024x16 .bf16) (x4 : Vec F S1x1024 .f32) (xs0 : Vec F S1024x1024 .f32) (xs1 : Vec F S1024x16 .f32) :
    sout0_B_1 (F := F) c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x16) hz]
  simp only [View.readAt_eq_ld, harg3.read_unread, harg5.read_unread, harg10.read_unread,
    View.ld_unit_zero (S := S1024x1024) hz, View.ld_unit_zero (S := S1024x16) hz, View.ld_unit_zero (S := S1x16x1024) hz3]

/-- Last step: the base accumulator ends at the update over what the step before left. -/
theorem sout0_C_0_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1x16x1024 .bf16) (x3 : Vec F S1x1024x16 .bf16) (x4 : Vec F S1x1024 .f32) (xs0 : Vec F S1024x1024 .f32) (xs1 : Vec F S1024x16 .f32) :
    sout0_C_0 (F := F) c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz]
  simp only [View.readAt_eq_ld, harg3.read_unread, harg4.read_unread, harg9.read_unread,
    View.ld_unit_zero (S := S1024x1024) hz]

/-- Last step: the hidden accumulator ends at the update over what the step before left. -/
theorem sout0_C_1_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1x16x1024 .bf16) (x3 : Vec F S1x1024x16 .bf16) (x4 : Vec F S1x1024 .f32) (xs0 : Vec F S1024x1024 .f32) (xs1 : Vec F S1024x16 .f32) :
    sout0_C_1 (F := F) c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x16) hz]
  simp only [View.readAt_eq_ld, harg3.read_unread, harg5.read_unread, harg10.read_unread,
    View.ld_unit_zero (S := S1024x1024) hz, View.ld_unit_zero (S := S1024x16) hz, View.ld_unit_zero (S := S1x16x1024) hz3]

/-- Last step: the output block is written from the two accumulators as this step has just updated them. -/
theorem out0_C_5_eq (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x16x1024 .bf16) (harg5 : arg5.IsWhole) (arg6 : Memref sig .tc .vmem S1x1024x16 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1x16x1024 .bf16) (x3 : Vec F S1x1024x16 .bf16) (x4 : Vec F S1x1024 .f32) (xs0 : Vec F S1024x1024 .f32) (xs1 : Vec F S1024x16 .f32) :
    out0_C_5 (F := F) c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz]
  -- the two accumulator operands are this step's own updates read back
  simp only [View.readAt_eq_ld, View.readCov_unit_zero (S := S1024x1024) _ hz, View.readCov_unit_zero (S := S1024x16) _ hz,
    harg3.read_unread, harg4.read_unread, harg5.read_unread, harg6.read_unread, harg7.read_unread, harg9.read_unread,
    harg10.read_unread, View.ld_unit_zero (S := S1024x1024) hz, View.ld_unit_zero (S := S1024x16) hz,
    View.ld_unit_zero (S := S1x16x1024) hz3, View.ld_unit_zero (S := S1x1024x16) hz3, View.ld_unit_zero (S := S1x1024) hz]

end Cert.KernelIdeal.Pieces

end
-- ==== Proof.KBlocks.lean ====
/-
  Where each window's block sits in its array.

  The grid has 16 x 4 x 4 points; point t is (i, j, k) = (t / 16, (t / 4) % 4, t % 4).  The token window's block at t
  is rows 1024 i .. 1024 i + 1023 and columns 1024 k .. of the token array; the weight window's is rows 1024 j ..
  and columns 1024 k ..; the first factor's is segment i / 2 = t / 32, all 16 rows, columns 1024 k ..; the second
  factor's is segment t / 32, rows 1024 j .., all 16 columns; the bias window's is columns 1024 j .. of the one row;
  the output's is rows 1024 i .., columns 1024 j ...
-/
import proofs.«148881_j16733192585553_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

/-- Token row of local row `p` at point `t`. -/
def rowOf (t : Nat) (p : Fin 1024) : Fin 16384 := ⟨1024 * ((t / 16) % 16) + p.val, by have := p.isLt; have := Nat.mod_lt (t / 16) (by decide : 0 < 16); omega⟩
/-- Output column of local column `q` at point `t`. -/
def colOf (t : Nat) (q : Fin 1024) : Fin 4096 := ⟨1024 * ((t / 4) % 4) + q.val, by have := q.isLt; have := Nat.mod_lt (t / 4) (by decide : 0 < 4); omega⟩
/-- Contraction position of local position `k` at point `t`. -/
def kOf (t : Nat) (k : Fin 1024) : Fin 4096 := ⟨1024 * (t % 4) + k.val, by have := k.isLt; have := Nat.mod_lt t (by decide : 0 < 4); omega⟩
/-- Segment of the token rows of point `t`. -/
def segOf (t : Nat) : Fin 8 := ⟨(t / 32) % 8, Nat.mod_lt _ (by decide)⟩

/-- The printed index maps in closed form, decided once over the grid's 256 points. -/
theorem idx_facts : ∀ t : Fin cfg0.N,
    win0_0.index t (0 : Fin 2) = (t.val / 16) % 16 ∧ win0_0.index t (1 : Fin 2) = t.val % 4
    ∧ win0_1.index t (0 : Fin 2) = (t.val / 4) % 4 ∧ win0_1.index t (1 : Fin 2) = t.val % 4
    ∧ win0_2.index t (0 : Fin 3) = (t.val / 32) % 8 ∧ win0_2.index t (1 : Fin 3) = 0 ∧ win0_2.index t (2 : Fin 3) = t.val % 4
    ∧ win0_3.index t (0 : Fin 3) = (t.val / 32) % 8 ∧ win0_3.index t (1 : Fin 3) = (t.val / 4) % 4 ∧ win0_3.index t (2 : Fin 3) = 0
    ∧ win0_4.index t (0 : Fin 2) = 0 ∧ win0_4.index t (1 : Fin 2) = (t.val / 4) % 4
    ∧ win0_5.index t (0 : Fin 2) = (t.val / 16) % 16 ∧ win0_5.index t (1 : Fin 2) = (t.val / 4) % 4 :=
  (by decide +kernel : ∀ t : Fin grid0.N, _)

variable {F : FTy → Type} [FloatOps F]
variable (m : (ℓ : Loc nD τ sig) → Buf (Elt F) ℓ)

/-- The token block at point `t`, entry (p, k). -/
theorem xblk (c : Dev nD) (t : Fin cfg0.N) (p k : Fin 1024) :
    (iblk m c 0 t : Vec F S1024x1024 .f32) (ix2 p k)
      = (V m c main_arg0 : Vec F S16384x4096 .f32) (ix2 (rowOf t.val p) (kOf t.val k)) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = 1024 * ((t.val / 16) % 16) + p.val; rw [e0]; omega
  | ⟨1, _⟩ => show win0_0.index t (1 : Fin 2) * 1024 + 1 * k.val = 1024 * (t.val % 4) + k.val; rw [e1]; omega

/-- The weight block at point `t`, entry (q, k). -/
theorem wblk (c : Dev nD) (t : Fin cfg0.N) (q k : Fin 1024) :
    (iblk m c 1 t : Vec F S1024x1024 .f32) (ix2 q k)
      = (V m c main_arg1 : Vec F S4096x4096 .f32) (ix2 (colOf t.val q) (kOf t.val k)) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * q.val = 1024 * ((t.val / 4) % 4) + q.val; rw [e0]; omega
  | ⟨1, _⟩ => show win0_1.index t (1 : Fin 2) * 1024 + 1 * k.val = 1024 * (t.val % 4) + k.val; rw [e1]; omega

/-- The first factor's block at point `t`, entry (0, r, k). -/
theorem ablk (c : Dev nD) (t : Fin cfg0.N) (r : Fin 16) (k : Fin 1024) :
    (iblk m c 2 t : Vec F S1x16x1024 .bf16) (ix3 (0 : Fin 1) r k)
      = (V m c main_v14 : Vec F S8x16x4096 .bf16) (ix3 (segOf t.val) r (kOf t.val k)) := by
  obtain ⟨-, -, -, -, e0, e1, e2, -⟩ := idx_facts t
  unfold iblk
  rw [View.read_apply]
  show V m c main_v14 _ = V m c main_v14 _
  congr 1
  funext a
  apply Fin.ext
  match a with
  | ⟨0, _⟩ => show win0_2.index t (0 : Fin 3) * 1 + 1 * 0 = (t.val / 32) % 8; rw [e0]; omega
  | ⟨1, _⟩ => show win0_2.index t (1 : Fin 3) * 16 + 1 * r.val = r.val; rw [e1]; omega
  | ⟨2, _⟩ => show win0_2.index t (2 : Fin 3) * 1024 + 1 * k.val = 1024 * (t.val % 4) + k.val; rw [e2]; omega

/-- The second factor's block at point `t`, entry (0, q, r). -/
theorem bblk (c : Dev nD) (t : Fin cfg0.N) (q : Fin 1024) (r : Fin 16) :
    (iblk m c 3 t : Vec F S1x1024x16 .bf16) (ix3 (0 : Fin 1) q r)
      = (V m c main_v15 : Vec F S8x4096x16 .bf16) (ix3 (segOf t.val) (colOf t.val q) r) := by
  obtain ⟨-, -, -, -, -, -, -, e0, e1, e2, -⟩ := idx_facts t
  unfold iblk
  rw [View.read_apply]
  show V m c main_v15 _ = V m c main_v15 _
  congr 1
  funext a
  apply Fin.ext
  match a with
  | ⟨0, _⟩ => show win0_3.index t (0 : Fin 3) * 1 + 1 * 0 = (t.val / 32) % 8; rw [e0]; omega
  | ⟨1, _⟩ => show win0_3.index t (1 : Fin 3) * 1024 + 1 * q.val = 1024 * ((t.val / 4) % 4) + q.val; rw [e1]; omega
  | ⟨2, _⟩ => show win0_3.index t (2 : Fin 3) * 16 + 1 * r.val = r.val; rw [e2]; omega

/-- The bias block at point `t`, entry (0, q). -/
theorem biasblk (c : Dev nD) (t : Fin cfg0.N) (q : Fin 1024) :
    (iblk m c 4 t : Vec F S1x1024 .f32) (ix2 (0 : Fin 1) q)
      = (V m c main_v16 : Vec F S1x4096 .f32) (ix2 (0 : Fin 1) (colOf t.val q)) := by
  obtain ⟨-, -, -, -, -, -, -, -, -, -, e0, e1, -⟩ := idx_facts t
  unfold iblk
  rw [View.read_apply]
  show V m c main_v16 _ = V m c main_v16 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = 1024 * ((t.val / 4) % 4) + q.val; rw [e1]; omega

end Cert.KernelIdeal.Blocks

end
-- ==== Proof.KFold.lean ====
/-
  What the two accumulators hold after each grid point, entry by entry.

  A reduction run is four consecutive points 4u, 4u+1, 4u+2, 4u+3 (the same token rows and output columns, the four
  runs of 1024 contraction positions in turn).  The first point stores zero and adds its partial product; each later
  point adds its own.  So after point t the base accumulator holds, at (p, q), zero plus the sum over the points
  4u .. t of the run's partial products of token row p against weight row q, and the hidden accumulator, at (p, r),
  zero plus the sum of the partial products of token row p against row r of the first factor.
-/
import proofs.«148881_j16733192585553_1_alg».proof.Proof.Gen.KernelIdeal.Value
import proofs.«148881_j16733192585553_1_alg».proof.Proof.KPay
import proofs.«148881_j16733192585553_1_alg».proof.Proof.KPieces
import proofs.«148881_j16733192585553_1_alg».proof.Proof.KBlocks
import Idealize.ShloMosaic.Lib.Pipeline.Value
import Idealize.ShloMosaic.Lib.ValueIdx

noncomputable section

namespace Cert.KernelIdeal.Fold

open Cert.KernelIdeal Cert.KernelIdeal.Gen Cert.KernelIdeal.Value Cert.KernelIdeal.Pay Cert.KernelIdeal.Pieces Cert.KernelIdeal.Blocks
open Idealize.ShloMosaic Idealize.ShloMosaic.TcCoe Idealize.ShloMosaic.ValueIdx Idealize.SL.Sem

variable (m : (ℓ : Loc nD τ sig) → Buf (Elt Ideal) ℓ)

/-- The token array, the weight array and the first factor as the kernel's windows find them. -/
abbrev xarr (c : Dev nD) : Vec Ideal S16384x4096 .f32 := V m c main_arg0
abbrev warr (c : Dev nD) : Vec Ideal S4096x4096 .f32 := V m c main_arg1
abbrev aarr (c : Dev nD) : Vec Ideal S8x16x4096 .bf16 := V m c main_v14

theorem xarr_eq (c : Dev nD) : xarr m c = m ((c : Thread nD τ).loc main_arg0) := V_main_arg0 m c
theorem warr_eq (c : Dev nD) : warr m c = m ((c : Thread nD τ).loc main_arg1) := V_main_arg1 m c

/-- Point `n`'s partial product for the base accumulator at (p, q): the run of 1024 contraction positions of point
    `n`, token row p against weight row q. -/
def baseTerm (c : Dev nD) (n : Nat) (i : S1024x1024.Idx) : EReal :=
  ∑ k : Fin 1024, xarr m c (ix2 (rowOf n (i 0)) (kOf n k)) * warr m c (ix2 (colOf n (i 1)) (kOf n k))

/-- Point `n`'s partial product for the hidden accumulator at (p, r): token row p against row r of the first factor. -/
def hidTerm (c : Dev nD) (n : Nat) (i : S1024x16.Idx) : EReal :=
  ∑ k : Fin 1024, xarr m c (ix2 (rowOf n (i 0)) (kOf n k)) * aarr m c (ix3 (segOf n) (i 1) (kOf n k))

/-- The base update at a point, over any previous contents: the contents plus the point's partial product. -/
theorem pay4_at (c : Dev nD) (t : Fin cfg0.N) (acc : Vec Ideal S1024x1024 .f32) (i : S1024x1024.Idx) :
    (k0_pay4 (iblk m c 0 t : Vec Ideal S1024x1024 .f32) (iblk m c 1 t : Vec Ideal S1024x1024 .f32) acc i : EReal)
      = acc i + baseTerm m c t.val i := by
  obtain ⟨p, q, rfl⟩ : ∃ (p q : Fin 1024), i = ix2 p q := ⟨i 0, i 1, eq_ix2 i⟩
  refine (pay4_apply _ _ acc p q).trans ?_
  refine congrArg (fun z : EReal => (acc (ix2 p q) : EReal) + z) (Finset.sum_congr rfl fun k _ => ?_)
  exact congrArg₂ (fun a b : EReal => a * b) (xblk m c t p k) (wblk m c t q k)

/-- The hidden update at a point, over any previous contents. -/
theorem pay5_at (c : Dev nD) (t : Fin cfg0.N) (acc : Vec Ideal S1024x16 .f32) (i : S1024x16.Idx) :
    (k0_pay5 (iblk m c 0 t : Vec Ideal S1024x1024 .f32) (iblk m c 2 t : Vec Ideal S1x16x1024 .bf16) acc i : EReal)
      = acc i + hidTerm m c t.val i := by
  obtain ⟨p, r, rfl⟩ : ∃ (p : Fin 1024) (r : Fin 16), i = ix2 p r := ⟨i 0, i 1, eq_ix2 i⟩
  refine (pay5_apply _ _ acc p r).trans ?_
  refine congrArg (fun z : EReal => (acc (ix2 p r) : EReal) + z) (Finset.sum_congr rfl fun k _ => ?_)
  exact congrArg₂ (fun a b : EReal => a * b) (xblk m c t p k) (ablk m c t r k)

/-- The base accumulator's step at the first point of a run: zero plus the point's partial product. -/
theorem sc0_reset (c : Dev nD) (n : Nat) (hb : n < cfg0.N) (h0 : n % 4 = 0) (junk : Vec Ideal S1024x1024 .f32) (i : S1024x1024.Idx) :
    (scAt0_0 m c n hb junk i : EReal) = 0 + baseTerm m c n i := by
  have h1 : ¬ n % 4 = 3 := by omega
  unfold scAt0_0
  rw [dif_pos h0, dif_neg h1]
  refine (congrFun (sout0_A_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) i).trans ?_
  refine (pay4_at m c (⟨n, hb⟩ : Fin cfg0.N) (k0_pay1 (F := Ideal)) i).trans ?_
  rw [pay1_apply]

/-- The base accumulator's step at a later point of a run: what was there plus the point's partial product. -/
theorem sc0_step (c : Dev nD) (n : Nat) (hb : n < cfg0.N) (h0 : ¬ n % 4 = 0) (acc : Vec Ideal S1024x1024 .f32) (i : S1024x1024.Idx) :
    (scAt0_0 m c n hb acc i : EReal) = acc i + baseTerm m c n i := by
  unfold scAt0_0
  rw [dif_neg h0]
  by_cases h1 : n % 4 = 3
  · rw [dif_pos h1]
    refine (congrFun (sout0_C_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2) i).trans ?_
    exact pay4_at m c (⟨n, hb⟩ : Fin cfg0.N) acc i
  · rw [dif_neg h1]
    refine (congrFun (sout0_B_0_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2) i).trans ?_
    exact pay4_at m c (⟨n, hb⟩ : Fin cfg0.N) acc i

/-- The hidden accumulator's step at the first point of a run. -/
theorem sc1_reset (c : Dev nD) (n : Nat) (hb : n < cfg0.N) (h0 : n % 4 = 0) (junk : Vec Ideal S1024x16 .f32) (i : S1024x16.Idx) :
    (scAt0_1 m c n hb junk i : EReal) = 0 + hidTerm m c n i := by
  have h1 : ¬ n % 4 = 3 := by omega
  unfold scAt0_1
  rw [dif_pos h0, dif_neg h1]
  refine (congrFun (sout0_A_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) i).trans ?_
  refine (pay5_at m c (⟨n, hb⟩ : Fin cfg0.N) (k0_pay2 (F := Ideal)) i).trans ?_
  rw [pay2_apply]

/-- The hidden accumulator's step at a later point of a run. -/
theorem sc1_step (c : Dev nD) (n : Nat) (hb : n < cfg0.N) (h0 : ¬ n % 4 = 0) (acc : Vec Ideal S1024x16 .f32) (i : S1024x16.Idx) :
    (scAt0_1 m c n hb acc i : EReal) = acc i + hidTerm m c n i := by
  unfold scAt0_1
  rw [dif_neg h0]
  by_cases h1 : n % 4 = 3
  · rw [dif_pos h1]
    refine (congrFun (sout0_C_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc) i).trans ?_
    exact pay5_at m c (⟨n, hb⟩ : Fin cfg0.N) acc i
  · rw [dif_neg h1]
    refine (congrFun (sout0_B_1_eq (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc) i).trans ?_
    exact pay5_at m c (⟨n, hb⟩ : Fin cfg0.N) acc i

/-- After point `t` the base accumulator holds zero plus the partial products of the run's points up to `t`. -/
theorem base_fold (c : Dev nD) (t : Fin cfg0.N) (i : S1024x1024.Idx) :
    ((outsAt0 m c t.val t.isLt).2.1 i : EReal)
      = 0 + ∑ s ∈ Finset.range (t.val % 4 + 1), baseTerm m c (4 * (t.val / 4) + s) i := by
  rw [soutsAt0_0_eq m c t]
  exact Pipeline.accAt_add_apply (ι := S1024x1024.Idx) (β := EReal)
    (fun n h => scAt0_0 m c n h (VS0_0.read (Elt Ideal) VS0_0.junk)) (scAt0_0 m c) (fun _ => 0) (baseTerm m c)
    (4 * (t.val / 4)) 3
    (fun h i => sc0_reset m c _ h (Nat.mul_mod_right 4 _) _ i)
    (fun n h acc i h1 h2 => sc0_step m c n h (by omega) acc i)
    (t.val % 4) (by have := Nat.mod_lt t.val (by decide : 0 < 4); omega) _ i

/-- After point `t` the hidden accumulator holds zero plus the partial products of the run's points up to `t`. -/
theorem hid_fold (c : Dev nD) (t : Fin cfg0.N) (i : S1024x16.Idx) :
    ((outsAt0 m c t.val t.isLt).2.2 i : EReal)
      = 0 + ∑ s ∈ Finset.range (t.val % 4 + 1), hidTerm m c (4 * (t.val / 4) + s) i := by
  rw [soutsAt0_1_eq m c t]
  exact Pipeline.accAt_add_apply (ι := S1024x16.Idx) (β := EReal)
    (fun n h => scAt0_1 m c n h (VS0_1.read (Elt Ideal) VS0_1.junk)) (scAt0_1 m c) (fun _ => 0) (hidTerm m c)
    (4 * (t.val / 4)) 3
    (fun h i => sc1_reset m c _ h (Nat.mul_mod_right 4 _) _ i)
    (fun n h acc i h1 h2 => sc1_step m c n h (by omega) acc i)
    (t.val % 4) (by have := Nat.mod_lt t.val (by decide : 0 < 4); omega) _ i

end Cert.KernelIdeal.Fold

end
-- ==== Proof.KHost.lean ====
/-
  The three arrays the host computes before the kernel is launched, read at one entry over the extended reals.

  The first factor is the two adapters' first factors joined along the segment axis, the second group scaled by its
  per-segment scalar; the second factor likewise, the first group scaled by its per-segment scalar and the second by
  its rank-wise and its output-wise scale; both are then converted to a narrower float format, which is the identity
  on the extended reals.  The bias is viewed as a one-row matrix.

  Each array is first written as the composition of the host operations applied to the arguments; that term is then
  read at an index, one layout operation at a time: the conversion reads the same entry, the join along the segment
  axis reads its first piece below segment 4 and its second piece from segment 4 on (4 less), a product reads the
  product of the entries, and a scale spread over the missing axes reads the scale at the coordinates it has.
-/
import proofs.«148881_j16733192585553_1_alg».proof.Proof.Gen.KernelIdeal.Frame
import proofs.«148881_j16733192585553_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Cert.Adapter Idealize.ShloMosaic Idealize.ShloMosaic.TcCoe Idealize.ShloMosaic.ValueIdx Idealize.SL.Sem

/-! ## Reading the layout operations at an entry -/

section Read
variable {α : Type}

/-- Two `[4, a, b]` arrays joined along the leading axis: a leading coordinate below 4 reads the first array. -/
theorem cat_lo {a b : ℕ} (x₁ x₂ : (⟨3, ![4, a, b]⟩ : Shape).Idx → α)
    (h : Shape.Concatenates [(⟨3, ![4, a, b]⟩ : Shape), ⟨3, ![4, a, b]⟩] ⟨3, ![8, a, b]⟩ 0)
    (g : Fin 8) (p : Fin a) (q : Fin b) (hg : g.val < 4) :
    concatenate ⟨3, ![8, a, b]⟩ 0 [⟨⟨3, ![4, a, b]⟩, x₁⟩, ⟨⟨3, ![4, a, b]⟩, x₂⟩] h (ix3 g p q)
      = x₁ (ix3 (⟨g.val, hg⟩ : Fin 4) p q) :=
  concatenate_pair_apply_left 0 x₁ x₂ h _ rfl _ (fun d => by
    match d with
    | ⟨0, _⟩ => rfl
    | ⟨1, _⟩ => rfl
    | ⟨2, _⟩ => rfl)

/-- Two `[4, a, b]` arrays joined along the leading axis: a leading coordinate from 4 on reads the second array, 4 less. -/
theorem cat_hi {a b : ℕ} (x₁ x₂ : (⟨3, ![4, a, b]⟩ : Shape).Idx → α)
    (h : Shape.Concatenates [(⟨3, ![4, a, b]⟩ : Shape), ⟨3, ![4, a, b]⟩] ⟨3, ![8, a, b]⟩ 0)
    (g : Fin 8) (p : Fin a) (q : Fin b) (hg : ¬ g.val < 4) (hg' : g.val - 4 < 4) :
    concatenate ⟨3, ![8, a, b]⟩ 0 [⟨⟨3, ![4, a, b]⟩, x₁⟩, ⟨⟨3, ![4, a, b]⟩, x₂⟩] h (ix3 g p q)
      = x₂ (ix3 (⟨g.val - 4, hg'⟩ : Fin 4) p q) :=
  concatenate_pair_apply_right 0 x₁ x₂ h _ rfl rfl _
    (fun d hd => by
      match d with
      | ⟨0, _⟩ => exact absurd rfl hd
      | ⟨1, _⟩ => rfl
      | ⟨2, _⟩ => rfl)
    (by show g.val - 4 + 4 = g.val; omega)

/-- A per-segment scalar spread over a `[4, a, b]` array reads, at `(g, p, q)`, the scalar of segment `g`. -/
theorem bcast_seg {a b : ℕ} (v : (⟨1, ![4]⟩ : Shape).Idx → α)
    (h1 : (⟨1, ![4]⟩ : Shape).BroadcastsInDim ⟨3, ![4, 1, 1]⟩ (![0] : Fin 1 → Fin 3))
    (h2 : (⟨3, ![4, 1, 1]⟩ : Shape).BroadcastsInDim ⟨3, ![4, a, b]⟩ (![0, 1, 2] : Fin 3 → Fin 3))
    (g : Fin 4) (p : Fin a) (q : Fin b) :
    broadcastInDim ⟨3, ![4, a, b]⟩ ![0, 1, 2] h2 (broadcastInDim ⟨3, ![4, 1, 1]⟩ ![0] h1 v) (ix3 g p q) = v (ix1 g) :=
  (broadcastInDim_apply _ h2 _ (ix3 g p q) (ix3 g (0 : Fin 1) (0 : Fin 1)) (fun d => by
    match d with
    | ⟨0, _⟩ => rfl
    | ⟨1, _⟩ => rfl
    | ⟨2, _⟩ => rfl)).trans
  (broadcastInDim_apply _ h1 _ (ix3 g (0 : Fin 1) (0 : Fin 1)) (ix1 g) (fun d => by
    match d with
    | ⟨0, _⟩ => rfl))

/-- A rank-wise scale `[4, 16]` spread over a `[4, a, 16]` array reads, at `(g, p, q)`, the scale at `(g, q)`. -/
theorem bcast_rank {a : ℕ} (v : (⟨2, ![4, 16]⟩ : Shape).Idx → α)
    (h1 : (⟨2, ![4, 16]⟩ : Shape).BroadcastsInDim ⟨3, ![4, 1, 16]⟩ (![0, 2] : Fin 2 → Fin 3))
    (h2 : (⟨3, ![4, 1, 16]⟩ : Shape).BroadcastsInDim ⟨3, ![4, a, 16]⟩ (![0, 1, 2] : Fin 3 → Fin 3))
    (g : Fin 4) (p : Fin a) (q : Fin 16) :
    broadcastInDim ⟨3, ![4, a, 16]⟩ ![0, 1, 2] h2 (broadcastInDim ⟨3, ![4, 1, 16]⟩ ![0, 2] h1 v) (ix3 g p q) = v (ix2 g q) :=
  (broadcastInDim_apply _ h2 _ (ix3 g p q) (ix3 g (0 : Fin 1) q) (fun d => by
    match d with
    | ⟨0, _⟩ => rfl
    | ⟨1, _⟩ => rfl
    | ⟨2, _⟩ => rfl)).trans
  (broadcastInDim_apply _ h1 _ (ix3 g (0 : Fin 1) q) (ix2 g q) (fun d => by
    match d with
    | ⟨0, _⟩ => rfl
    | ⟨1, _⟩ => rfl))

/-- An output-wise scale `[4, 4096]` spread over a `[4, 4096, b]` array reads, at `(g, p, q)`, the scale at `(g, p)`. -/
theorem bcast_out {b : ℕ} (v : (⟨2, ![4, 4096]⟩ : Shape).Idx → α)
    (h1 : (⟨2, ![4, 4096]⟩ : Shape).BroadcastsInDim ⟨3, ![4, 4096, 1]⟩ (![0, 1] : Fin 2 → Fin 3))
    (h2 : (⟨3, ![4, 4096, 1]⟩ : Shape).BroadcastsInDim ⟨3, ![4, 4096, b]⟩ (![0, 1, 2] : Fin 3 → Fin 3))
    (g : Fin 4) (p : Fin 4096) (q : Fin b) :
    broadcastInDim ⟨3, ![4, 4096, b]⟩ ![0, 1, 2] h2 (broadcastInDim ⟨3, ![4, 4096, 1]⟩ ![0, 1] h1 v) (ix3 g p q) = v (ix2 g p) :=
  (broadcastInDim_apply _ h2 _ (ix3 g p q) (ix3 g p (0 : Fin 1)) (fun d => by
    match d with
    | ⟨0, _⟩ => rfl
    | ⟨1, _⟩ => rfl
    | ⟨2, _⟩ => rfl)).trans
  (broadcastInDim_apply _ h1 _ (ix3 g p (0 : Fin 1)) (ix2 g p) (fun d => by
    match d with
    | ⟨0, _⟩ => rfl
    | ⟨1, _⟩ => rfl))

end Read

/-! ## The products, entry by entry -/

/-- An array times its per-segment scalar. -/
theorem scaled_seg {a b : ℕ} (x : (⟨3, ![4, a, b]⟩ : Shape).Idx → EReal) (v : (⟨1, ![4]⟩ : Shape).Idx → EReal)
    (h1 : (⟨1, ![4]⟩ : Shape).BroadcastsInDim ⟨3, ![4, 1, 1]⟩ (![0] : Fin 1 → Fin 3))
    (h2 : (⟨3, ![4, 1, 1]⟩ : Shape).BroadcastsInDim ⟨3, ![4, a, b]⟩ (![0, 1, 2] : Fin 3 → Fin 3))
    (g : Fin 4) (p : Fin a) (q : Fin b) :
    mulf (F := Ideal) (φ := .f32) x
        (broadcastInDim ⟨3, ![4, a, b]⟩ ![0, 1, 2] h2 (broadcastInDim ⟨3, ![4, 1, 1]⟩ ![0] h1 v)) (ix3 g p q)
      = x (ix3 g p q) * v (ix1 g) :=
  congrArg (x (ix3 g p q) * ·) (bcast_seg v h1 h2 g p q)

/-- An array times its rank-wise scale, then times its output-wise scale. -/
theorem scaled_rank_out (x : (⟨3, ![4, 4096, 16]⟩ : Shape).Idx → EReal) (vd : (⟨2, ![4, 16]⟩ : Shape).Idx → EReal)
    (vbv : (⟨2, ![4, 4096]⟩ : Shape).Idx → EReal)
    (h1 : (⟨2, ![4, 16]⟩ : Shape).BroadcastsInDim ⟨3, ![4, 1, 16]⟩ (![0, 2] : Fin 2 → Fin 3))
    (h2 : (⟨3, ![4, 1, 16]⟩ : Shape).BroadcastsInDim ⟨3, ![4, 4096, 16]⟩ (![0, 1, 2] : Fin 3 → Fin 3))
    (h3 : (⟨2, ![4, 4096]⟩ : Shape).BroadcastsInDim ⟨3, ![4, 4096, 1]⟩ (![0, 1] : Fin 2 → Fin 3))
    (h4 : (⟨3, ![4, 4096, 1]⟩ : Shape).BroadcastsInDim ⟨3, ![4, 4096, 16]⟩ (![0, 1, 2] : Fin 3 → Fin 3))
    (g : Fin 4) (o : Fin 4096) (r : Fin 16) :
    mulf (F := Ideal) (φ := .f32)
        (mulf (F := Ideal) (φ := .f32) x
          (broadcastInDim ⟨3, ![4, 4096, 16]⟩ ![0, 1, 2] h2 (broadcastInDim ⟨3, ![4, 1, 16]⟩ ![0, 2] h1 vd)))
        (broadcastInDim ⟨3, ![4, 4096, 16]⟩ ![0, 1, 2] h4 (broadcastInDim ⟨3, ![4, 4096, 1]⟩ ![0, 1] h3 vbv)) (ix3 g o r)
      = (x (ix3 g o r) * vd (ix2 g r)) * vbv (ix2 g o) :=
  congrArg₂ (· * ·) (congrArg (x (ix3 g o r) * ·) (bcast_rank vd h1 h2 g o r)) (bcast_out vbv h3 h4 g o r)

variable (m : (ℓ : Loc nD τ sig) → Buf (Elt Ideal) ℓ)

/-- The first factor as the kernel's window finds it: `afac` of the arguments. -/
theorem v14_apply (c : Dev nD) (g : Fin 8) (r : Fin 16) (k : Fin 4096) :
    (V m c main_v14 : S8x16x4096.Idx → EReal) (ix3 g r k)
      = afac (m ((c : Thread nD τ).loc main_arg3)) (m ((c : Thread nD τ).loc main_arg6)) (m ((c : Thread nD τ).loc main_arg10)) g r k := by
  have e : (V m c main_v14 : S8x16x4096.Idx → EReal)
      = truncf (F := Ideal) (φ := .f32) .bf16 (concatenate S8x16x4096 0
          [⟨S4x16x4096, (m ((c : Thread nD τ).loc main_arg3) : S4x16x4096.Idx → EReal)⟩,
           ⟨S4x16x4096, mulf (F := Ideal) (φ := .f32) (m ((c : Thread nD τ).loc main_arg6))
              (broadcastInDim S4x16x4096 ![0, 1, 2] bcast_S4x1x1_S4x16x4096_0_1_2
                (broadcastInDim S4x1x1 ![0] bcast_S4_S4x1x1_0 (m ((c : Thread nD τ).loc main_arg10) : S4.Idx → EReal)))⟩]
          concatenates_S4x16x4096_S4x16x4096_S8x16x4096_d0) bitsLt_bf16_f32 := by
    dsimp only [Gen.V, Gen.hostOps0]; after_results <;> rfl
  refine (congrFun e (ix3 g r k)).trans ?_
  unfold afac
  by_cases hg : g.val < 4
  · rw [dif_pos hg]
    exact cat_lo _ _ concatenates_S4x16x4096_S4x16x4096_S8x16x4096_d0 g r k hg
  · rw [dif_neg hg]
    have hg' : g.val - 4 < 4 := by have := g.isLt; omega
    refine (cat_hi _ _ concatenates_S4x16x4096_S4x16x4096_S8x16x4096_d0 g r k hg hg').trans ?_
    exact scaled_seg _ _ bcast_S4_S4x1x1_0 bcast_S4x1x1_S4x16x4096_0_1_2 ⟨g.val - 4, hg'⟩ r k

/-- The second factor as the kernel's window finds it: `bfac` of the arguments. -/
theorem v15_apply (c : Dev nD) (g : Fin 8) (o : Fin 4096) (r : Fin 16) :
    (V m c main_v15 : S8x4096x16.Idx → EReal) (ix3 g o r)
      = bfac (m ((c : Thread nD τ).loc main_arg4)) (m ((c : Thread nD τ).loc main_arg7)) (m ((c : Thread nD τ).loc main_arg5)) (m ((c : Thread nD τ).loc main_arg8)) (m ((c : Thread nD τ).loc main_arg9)) g o r := by
  have e : (V m c main_v15 : S8x4096x16.Idx → EReal)
      = truncf (F := Ideal) (φ := .f32) .bf16 (concatenate S8x4096x16 0
          [⟨S4x4096x16, mulf (F := Ideal) (φ := .f32) (m ((c : Thread nD τ).loc main_arg4))
              (broadcastInDim S4x4096x16 ![0, 1, 2] bcast_S4x1x1_S4x4096x16_0_1_2
                (broadcastInDim S4x1x1 ![0] bcast_S4_S4x1x1_0 (m ((c : Thread nD τ).loc main_arg5) : S4.Idx → EReal)))⟩,
           ⟨S4x4096x16, mulf (F := Ideal) (φ := .f32)
              (mulf (F := Ideal) (φ := .f32) (m ((c : Thread nD τ).loc main_arg7))
                (broadcastInDim S4x4096x16 ![0, 1, 2] bcast_S4x1x16_S4x4096x16_0_1_2
                  (broadcastInDim S4x1x16 ![0, 2] bcast_S4x16_S4x1x16_0_2 (m ((c : Thread nD τ).loc main_arg8) : S4x16.Idx → EReal))))
              (broadcastInDim S4x4096x16 ![0, 1, 2] bcast_S4x4096x1_S4x4096x16_0_1_2
                (broadcastInDim S4x4096x1 ![0, 1] bcast_S4x4096_S4x4096x1_0_1 (m ((c : Thread nD τ).loc main_arg9) : S4x4096.Idx → EReal)))⟩]
          concatenates_S4x4096x16_S4x4096x16_S8x4096x16_d0) bitsLt_bf16_f32 := by
    dsimp only [Gen.V, Gen.hostOps0]; after_results_simp <;> rfl
  refine (congrFun e (ix3 g o r)).trans ?_
  unfold bfac
  by_cases hg : g.val < 4
  · rw [dif_pos hg]
    refine (cat_lo _ _ concatenates_S4x4096x16_S4x4096x16_S8x4096x16_d0 g o r hg).trans ?_
    exact scaled_seg _ _ bcast_S4_S4x1x1_0 bcast_S4x1x1_S4x4096x16_0_1_2 ⟨g.val, hg⟩ o r
  · rw [dif_neg hg]
    have hg' : g.val - 4 < 4 := by have := g.isLt; omega
    refine (cat_hi _ _ concatenates_S4x4096x16_S4x4096x16_S8x4096x16_d0 g o r hg hg').trans ?_
    exact scaled_rank_out _ _ _ bcast_S4x16_S4x1x16_0_2 bcast_S4x1x16_S4x4096x16_0_1_2 bcast_S4x4096_S4x4096x1_0_1
      bcast_S4x4096x1_S4x4096x16_0_1_2 ⟨g.val - 4, hg'⟩ o r

/-- The bias as the kernel's window finds it: a one-row matrix holding the bias vector. -/
theorem v16_apply (c : Dev nD) (o : Fin 4096) :
    (V m c main_v16 : S1x4096.Idx → EReal) (ix2 (0 : Fin 1) o) = (m ((c : Thread nD τ).loc main_arg2)) (ix1 o) := by
  have e : (V m c main_v16 : S1x4096.Idx → EReal)
      = shapeCast S1x4096 (m ((c : Thread nD τ).loc main_arg2) : S4096.Idx → EReal) shapeCasts_S4096_S1x4096 := by
    dsimp only [Gen.V, Gen.hostOps0]; after_results <;> rfl
  refine (congrFun e (ix2 (0 : Fin 1) o)).trans ?_
  exact shapeCast_a_1a_apply _ shapeCasts_S4096_S1x4096 0 o

end Cert.KernelIdeal.HostSide

end
-- ==== Proof.KSum.lean ====
/-
  A sum over 4096 positions, cut into four consecutive runs of 1024.

  Position j is 1024 s + k for exactly one run s < 4 and one offset k < 1024; so the sum over all positions is the
  sum over the runs of the sums over the offsets.  The run number is written `s % 4` so that the summand is defined
  for every natural s (for s < 4 it is s itself).
-/
import Idealize.ShloMosaic.PureOps.Ideal
import Mathlib.Algebra.BigOperators.Fin
import Mathlib.Logic.Equiv.Fin.Basic

noncomputable section

namespace Cert.Adapter

/-- Position of offset `k` in run `s`. -/
def pos (s : Nat) (k : Fin 1024) : Fin 4096 := ⟨1024 * (s % 4) + k.val, by have := k.isLt; have := Nat.mod_lt s (by decide : 0 < 4); omega⟩

theorem sum_runs {M : Type} [AddCommMonoid M] (f : Fin 4096 → M) :
    ∑ s ∈ Finset.range 4, ∑ k : Fin 1024, f (pos s k) = ∑ j : Fin 4096, f j := by
  rw [← Fin.sum_univ_eq_sum_range (fun s => ∑ k : Fin 1024, f (pos s k)) 4]
  rw [← Fintype.sum_prod_type']
  refine Fintype.sum_equiv (finProdFinEquiv (m := 4) (n := 1024)) _ _ fun x => ?_
  refine congrArg f (Fin.ext ?_)
  obtain ⟨s, k⟩ := x
  show 1024 * (s.val % 4) + k.val = k.val + 1024 * s.val
  have := s.isLt
  omega

end Cert.Adapter

end
-- ==== Proof.KFinal.lean ====
/-
  The kernel's result array: the folded arrangement of the arguments, entry by entry.

  The output block of rows 1024 i .. and columns 1024 j .. is written once, at the last point of its reduction run;
  by then the base accumulator holds the full product row against row over all 4096 contraction positions (the four
  runs of 1024 put back together), the hidden accumulator the full product of the token row against the first
  factor's rows, and the block is base + hidden x second factor + bias.  The 16 x 4 output blocks tile the array.
-/
import proofs.«148881_j16733192585553_1_alg».proof.Proof.Gen.KernelIdeal.Value
import proofs.«148881_j16733192585553_1_alg».proof.Proof.KFold
import proofs.«148881_j16733192585553_1_alg».proof.Proof.KHost
import proofs.«148881_j16733192585553_1_alg».proof.Proof.KSum
import proofs.«148881_j16733192585553_1_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Value Cert.KernelIdeal.Pay Cert.KernelIdeal.Pieces Cert.KernelIdeal.Blocks
open Cert.KernelIdeal.Fold Cert.KernelIdeal.HostSide Cert.Adapter
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: the folded arrangement of the arguments at every entry. -/
def G (c : Dev nD) : S16384x4096.Idx → EReal := fun i =>
  folded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1)

/-- The four runs' partial products of the base accumulator are the full product over all contraction positions. -/
theorem base_total (c : Dev nD) (t : Fin cfg0.N) (h1 : t.val % 4 = 3) (p q : Fin 1024) :
    ∑ s ∈ Finset.range (t.val % 4 + 1), baseTerm m c (4 * (t.val / 4) + s) (ix2 p q)
      = ∑ j : Fin 4096, xarr m c (ix2 (rowOf t.val p) j)
          * warr m c (ix2 (colOf t.val q) j) := by
  rw [h1, ← sum_runs (fun j => (xarr m c (ix2 (rowOf t.val p) j) : EReal)
          * warr m c (ix2 (colOf t.val q) j))]
  refine Finset.sum_congr rfl fun s hs => ?_
  have hs4 : s < 4 := Finset.mem_range.mp hs
  refine Finset.sum_congr rfl fun k _ => ?_
  have e1 : rowOf (4 * (t.val / 4) + s) p = rowOf t.val p := Fin.ext (by
    show 1024 * (((4 * (t.val / 4) + s) / 16) % 16) + p.val = 1024 * ((t.val / 16) % 16) + p.val; omega)
  have e2 : colOf (4 * (t.val / 4) + s) q = colOf t.val q := Fin.ext (by
    show 1024 * (((4 * (t.val / 4) + s) / 4) % 4) + q.val = 1024 * ((t.val / 4) % 4) + q.val; omega)
  have e3 : kOf (4 * (t.val / 4) + s) k = pos s k := Fin.ext (by
    show 1024 * ((4 * (t.val / 4) + s) % 4) + k.val = 1024 * (s % 4) + k.val; omega)
  show (xarr m c (ix2 (rowOf (4 * (t.val / 4) + s) p) (kOf (4 * (t.val / 4) + s) k)) : EReal)
      * warr m c (ix2 (colOf (4 * (t.val / 4) + s) q) (kOf (4 * (t.val / 4) + s) k)) = _
  rw [e1, e2, e3]

/-- The four runs' partial products of the hidden accumulator likewise. -/
theorem hid_total (c : Dev nD) (t : Fin cfg0.N) (h1 : t.val % 4 = 3) (p : Fin 1024) (r : Fin 16) :
    ∑ s ∈ Finset.range (t.val % 4 + 1), hidTerm m c (4 * (t.val / 4) + s) (ix2 p r)
      = ∑ j : Fin 4096, xarr m c (ix2 (rowOf t.val p) j)
          * aarr m c (ix3 (segOf t.val) r j) := by
  rw [h1, ← sum_runs (fun j => (xarr m c (ix2 (rowOf t.val p) j) : EReal)
          * aarr m c (ix3 (segOf t.val) r j))]
  refine Finset.sum_congr rfl fun s hs => ?_
  have hs4 : s < 4 := Finset.mem_range.mp hs
  refine Finset.sum_congr rfl fun k _ => ?_
  have e1 : rowOf (4 * (t.val / 4) + s) p = rowOf t.val p := Fin.ext (by
    show 1024 * (((4 * (t.val / 4) + s) / 16) % 16) + p.val = 1024 * ((t.val / 16) % 16) + p.val; omega)
  have e2 : segOf (4 * (t.val / 4) + s) = segOf t.val := Fin.ext (by
    show ((4 * (t.val / 4) + s) / 32) % 8 = (t.val / 32) % 8; omega)
  have e3 : kOf (4 * (t.val / 4) + s) k = pos s k := Fin.ext (by
    show 1024 * ((4 * (t.val / 4) + s) % 4) + k.val = 1024 * (s % 4) + k.val; omega)
  show (xarr m c (ix2 (rowOf (4 * (t.val / 4) + s) p) (kOf (4 * (t.val / 4) + s) k)) : EReal)
      * aarr m c (ix3 (segOf (4 * (t.val / 4) + s)) r (kOf (4 * (t.val / 4) + s) k)) = _
  rw [e1, e2, e3]

/-- The first factor as the window finds it is the folded first factor of the arguments. -/
theorem aarr_apply (c : Dev nD) (g : Fin 8) (r : Fin 16) (k : Fin 4096) :
    (aarr m c (ix3 g r k) : EReal) = afac (m ((c : Thread nD τ).loc main_arg3)) (m ((c : Thread nD τ).loc main_arg6)) (m ((c : Thread nD τ).loc main_arg10)) g r k := v14_apply m c g r k

/-- The segment of a point's token rows is the segment of each of those rows. -/
theorem segOf_eq (t : Fin cfg0.N) (p : Fin 1024) : segOf t.val = seg (rowOf t.val p) := Fin.ext (by
  have ht : t.val < 256 := lt_of_lt_of_eq t.isLt (show cfg0.N = 256 from N_0)
  have hp := p.isLt
  show (t.val / 32) % 8 = (1024 * ((t.val / 16) % 16) + p.val) / 2048
  omega)

/-- The full base product at (n, o). -/
def baseFull (x : X2.Idx → EReal) (w : W2.Idx → EReal) (n : Fin 16384) (o : Fin 4096) : EReal :=
  ∑ k : Fin 4096, x (ix2 n k) * w (ix2 o k)

/-- The full hidden product at (n, r): token row n against row r of the folded first factor of n's segment. -/
def hidFull (x : X2.Idx → EReal) (la va : A3.Idx → EReal) (vs : S1.Idx → EReal) (n : Fin 16384) (r : Fin 16) : EReal :=
  ∑ k : Fin 4096, x (ix2 n k) * afac la va vs (seg n) r k

/-- What the last point of a run writes into the output block, at (p, q): the folded arrangement at the block's
    token row and output column. -/
theorem out_at (c : Dev nD) (t : Fin cfg0.N) (h0 : ¬ t.val % 4 = 0) (h1 : t.val % 4 = 3) (p q : Fin 1024) :
    ((out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 : Vec Ideal S1024x1024 .f32) (ix2 p q) : EReal)
      = folded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t.val p) (colOf t.val q) := by
  have eA : k0_pay4 (iblk m c 0 t) (iblk m c 1 t) (outsAt0 m c (t.val - 1) (Nat.lt_of_le_of_lt (Nat.sub_le _ _) t.isLt)).2.1 = (outsAt0 m c t.val t.isLt).2.1 := by
    rw [outsAt0_C m c t h0 h1]; dsimp only
    exact (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).symm
  have eH : k0_pay5 (iblk m c 0 t) (iblk m c 2 t) (outsAt0 m c (t.val - 1) (Nat.lt_of_le_of_lt (Nat.sub_le _ _) t.isLt)).2.2 = (outsAt0 m c t.val t.isLt).2.2 := by
    rw [outsAt0_C m c t h0 h1]; dsimp only
    exact (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2).symm
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  rw [eH, eA]
  refine (pay6_apply _ _ _ _ p q).trans ?_
  have hb : ((outsAt0 m c t.val t.isLt).2.1 (ix2 p q) : EReal)
      = baseFull (m ((c : Thread nD τ).loc main_arg0)) (m ((c : Thread nD τ).loc main_arg1)) (rowOf t.val p) (colOf t.val q) := by
    rw [base_fold m c t (ix2 p q), base_total m c t h1 p q, zero_add, xarr_eq m c, warr_eq m c]
    rfl
  have hr : ∀ r : Fin 16, ((outsAt0 m c t.val t.isLt).2.2 (ix2 p r) : EReal)
      = hidFull (m ((c : Thread nD τ).loc main_arg0)) (m ((c : Thread nD τ).loc main_arg3)) (m ((c : Thread nD τ).loc main_arg6)) (m ((c : Thread nD τ).loc main_arg10)) (rowOf t.val p) r := fun r => by
    rw [hid_fold m c t (ix2 p r), hid_total m c t h1 p r, zero_add, xarr_eq m c]
    refine Finset.sum_congr rfl fun j _ => ?_
    rw [aarr_apply m c, segOf_eq t p]
  have hB : ∀ r : Fin 16, ((iblk m c 3 t : Vec Ideal S1x1024x16 .bf16) (ix3 (0 : Fin 1) q r) : EReal)
      = bfac (m ((c : Thread nD τ).loc main_arg4)) (m ((c : Thread nD τ).loc main_arg7)) (m ((c : Thread nD τ).loc main_arg5)) (m ((c : Thread nD τ).loc main_arg8)) (m ((c : Thread nD τ).loc main_arg9)) (seg (rowOf t.val p)) (colOf t.val q) r := fun r => by
    rw [bblk m c t q r, v15_apply m c, segOf_eq t p]
  have hbias : ((iblk m c 4 t : Vec Ideal S1x1024 .f32) (ix2 (0 : Fin 1) q) : EReal) = (m ((c : Thread nD τ).loc main_arg2)) (ix1 (colOf t.val q)) := by
    rw [biasblk m c t q, v16_apply m c]
  rw [hb, hbias]
  simp only [hr, hB]
  rfl

/-- WHAT A FLUSHING POINT WRITES BACK is its block of the result array. -/
theorem flushed_eq (c : Dev nD) (t : Fin cfg0.N) (hf : (cfg0.win 5).flush t = true) :
    (dats m 0 c).flushed 5 t = ((cfg0.win 5).blk t).view.read (Elt Ideal) (G m c) := by
  have h1 : t.val % 4 = 3 := (flush0_5 t).mp hf
  have h0 : ¬ t.val % 4 = 0 := by omega
  obtain ⟨-, -, -, -, -, -, -, -, -, -, -, -, e0, e1⟩ := idx_facts t
  rw [flushed5_C m c t h0 h1]
  funext j
  rw [View.read_apply]
  show ((out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2 : Vec Ideal S1024x1024 .f32) j : EReal)
      = G m c (((cfg0.win 5).blk t).view.emb j)
  have hj : j = (ix2 (j 0) (j 1) : S1024x1024.Idx) := eq_ix2 (n0 := 1024) (n1 := 1024) j
  rw [hj, out_at m c t h0 h1 (j 0) (j 1)]
  unfold G
  congr 1
  · apply Fin.ext
    show 1024 * ((t.val / 16) % 16) + (j 0).val = win0_5.index t (0 : Fin 2) * 1024 + 1 * (j 0).val
    rw [e0]; omega
  · apply Fin.ext
    show 1024 * ((t.val / 4) % 4) + (j 1).val = win0_5.index t (1 : Fin 2) * 1024 + 1 * (j 1).val
    rw [e1]; omega

/-- An index of the result array is in point `t`'s output block iff each coordinate is in the block's range. -/
theorem mem_blk (t : Fin cfg0.N) (i : S16384x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v17).slice (win0_5.rect t)).set ↔ _
  rw [View.set_slice_whole, Rect.mem_set_unit]
  exact Iff.rfl

/-- Every entry of the result array lies in the output block of some flushing point: the last point of the run of its
    row block and column block. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  have hN : 16 * ((i 0).val / 1024) + 4 * ((i 1).val / 1024) + 3 < cfg0.N := by
    show _ < grid0.N; rw [N_0]; omega
  refine ⟨⟨16 * ((i 0).val / 1024) + 4 * ((i 1).val / 1024) + 3, hN⟩, (flush0_5 _).mpr (by show (16 * ((i 0).val / 1024) + 4 * ((i 1).val / 1024) + 3) % 4 = 3; omega), ?_⟩
  obtain ⟨-, -, -, -, -, -, -, -, -, -, -, -, e0, e1⟩ := idx_facts ⟨16 * ((i 0).val / 1024) + 4 * ((i 1).val / 1024) + 3, hN⟩
  rw [mem_blk]
  intro a
  match a with
  | ⟨0, _⟩ =>
    show win0_5.index ⟨16 * ((i 0).val / 1024) + 4 * ((i 1).val / 1024) + 3, hN⟩ (0 : Fin 2) * 1024 ≤ (i 0).val
      ∧ (i 0).val < win0_5.index ⟨16 * ((i 0).val / 1024) + 4 * ((i 1).val / 1024) + 3, hN⟩ (0 : Fin 2) * 1024 + 1024
    rw [e0]
    show ((16 * ((i 0).val / 1024) + 4 * ((i 1).val / 1024) + 3) / 16) % 16 * 1024 ≤ (i 0).val
      ∧ (i 0).val < ((16 * ((i 0).val / 1024) + 4 * ((i 1).val / 1024) + 3) / 16) % 16 * 1024 + 1024
    omega
  | ⟨1, _⟩ =>
    show win0_5.index ⟨16 * ((i 0).val / 1024) + 4 * ((i 1).val / 1024) + 3, hN⟩ (1 : Fin 2) * 1024 ≤ (i 1).val
      ∧ (i 1).val < win0_5.index ⟨16 * ((i 0).val / 1024) + 4 * ((i 1).val / 1024) + 3, hN⟩ (1 : Fin 2) * 1024 + 1024
    rw [e1]
    show ((16 * ((i 0).val / 1024) + 4 * ((i 1).val / 1024) + 3) / 4) % 4 * 1024 ≤ (i 1).val
      ∧ (i 1).val < ((16 * ((i 0).val / 1024) + 4 * ((i 1).val / 1024) + 3) / 4) % 4 * 1024 + 1024
    omega

/-- THE RESULT ARRAY after the run. -/
theorem final (c : Dev nD) : (dats m 0 c).arrAt 5 cfg0.N = G m c :=
  (dats m 0 c).arrAt_eq_of_cover 5 (G m c) (fun t hf => flushed_eq m c t hf) cover

/-- The kernel's run: it terminates without a fault, the result array at `G`, the arguments unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Final

end
-- ==== Proof.RefSide.lean ====
/-
  The reference program's result, entry by entry over the extended reals: the stage-by-stage arrangement `staged`.

  Entry (n, o) of the base product is the sum over k of x(n,k) W(o,k) (the weight matrix is transposed before the
  product), plus bias(o).  Token row n is row n % 2048 of segment n / 2048; on segments 0..3 the adapter term is the
  first group's, on segments 4..7 the second group's, each a pair of batched products with the scales applied to
  the intermediate results; the two groups are joined along the segment axis and the join is viewed as a matrix again.
-/
import proofs.«148881_j16733192585553_1_alg».proof.Proof.Gen.ReferenceIdeal.Read
import proofs.«148881_j16733192585553_1_alg».proof.Proof.Spec
import Idealize.ShloMosaic.Lib.Pipeline.Value
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Cert.Adapter Idealize.ShloMosaic Idealize.ShloMosaic.ValueIdx

/-! ## An index is determined by the values of its coordinates -/

/-- A rank-1 index whose coordinate has the value of `a` is `ix1 a`. -/
theorem eq_ix1_of {n0 : Nat} (f : (⟨1, ![n0]⟩ : Shape).Idx) (a : Fin n0) (h0 : (f 0).val = a.val) : f = ix1 a := by
  funext d
  match d with
  | ⟨0, _⟩ => exact Fin.ext h0

/-- A rank-2 index whose coordinates have the values of `a`, `b` is `ix2 a b`. -/
theorem eq_ix2_of {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- A rank-3 index whose coordinates have the values of `a`, `b`, `c` is `ix3 a b c`. -/
theorem eq_ix3_of {n0 n1 n2 : Nat} (f : (⟨3, ![n0, n1, n2]⟩ : Shape).Idx) (a : Fin n0) (b : Fin n1) (c : Fin n2)
    (h0 : (f 0).val = a.val) (h1 : (f 1).val = b.val) (h2 : (f 2).val = c.val) : f = ix3 a b c := by
  funext d
  match d with
  | ⟨0, _⟩ => exact Fin.ext h0
  | ⟨1, _⟩ => exact Fin.ext h1
  | ⟨2, _⟩ => exact Fin.ext h2

/-! ## The base product and the bias -/

/-- Entry (n, o) of x Wᵀ + bias: the weight matrix is read transposed, the bias along the output axis. -/
theorem base_apply (x0 : (⟨S16384x4096, .f32⟩ : BufTy).Contents (Elt Ideal)) (x1 : (⟨S4096x4096, .f32⟩ : BufTy).Contents (Elt Ideal)) (x2 : (⟨S4096, .f32⟩ : BufTy).Contents (Elt Ideal)) (n : Fin 16384) (o : Fin 4096) :
    val_main_v4 (F := Ideal) x0 x1 x2 (ix2 n o) = (∑ k : Fin 4096, x0 (ix2 n k) * x1 (ix2 o k)) + x2 (ix1 o) := by
  rw [val_main_v4_apply, val_main_v1_apply, val_main_v3_apply, val_main_v2_apply]
  have e2 : idx_main_v2 (idx_main_v3 (ix2 n o)) = ix1 o := eq_ix1_of _ _ rfl
  rw [e2]
  show (∑ k : Fin 4096, x0 (lidx_main_v1 (ix2 n o) k) * val_main_v0 (F := Ideal) x1 (ridx_main_v1 (ix2 n o) k)) + x2 (ix1 o) = _
  refine congrArg (· + x2 (ix1 o)) (Finset.sum_congr rfl fun k _ => ?_)
  have el : lidx_main_v1 (ix2 n o) k = ix2 n k := eq_ix2_of _ _ _ rfl rfl
  have er : idx_main_v0 (ridx_main_v1 (ix2 n o) k) = ix2 o k := eq_ix2_of _ _ _ rfl rfl
  rw [val_main_v0_apply, el, er]

/-! ## The token matrix by segments -/

/-- The token matrix viewed as [8, 2048, 4096]: entry (g, s, k) is entry (m, k) of the matrix, m = 2048 g + s. -/
theorem seg_apply (x0 : (⟨S16384x4096, .f32⟩ : BufTy).Contents (Elt Ideal)) (g : Fin 8) (s : Fin 2048) (k : Fin 4096) (m : Fin 16384)
    (hm : m.val = g.val * 2048 + s.val) :
    val_main_v5 (F := Ideal) x0 (ix3 g s k) = x0 (ix2 m k) := by
  rw [val_main_v5_apply]
  refine congrArg x0 (eq_ix2_of _ _ _ ?_ ?_)
  · show ((g.val * 2048 + s.val) * 4096 + k.val) / 4096 = m.val
    omega
  · show ((g.val * 2048 + s.val) * 4096 + k.val) % 4096 = k.val
    omega

/-! ## The first group (segments 0..3) -/

/-- The first product: row (g, s) of the tokens against row r of the segment's first factor. -/
theorem lo_down_apply (x0 : (⟨S16384x4096, .f32⟩ : BufTy).Contents (Elt Ideal)) (x3 : (⟨S4x16x4096, .f32⟩ : BufTy).Contents (Elt Ideal)) (g : Fin 4) (s : Fin 2048) (r : Fin 16) (m : Fin 16384)
    (hm : m.val = g.val * 2048 + s.val) :
    val_main_v7 (F := Ideal) x0 x3 (ix3 g s r) = ∑ k : Fin 4096, x0 (ix2 m k) * x3 (ix3 g r k) := by
  rw [val_main_v7_apply]
  refine Finset.sum_congr rfl fun k _ => ?_
  have e1 : idx_main_v6 (lidx_main_v7 (ix3 g s r) k) = ix3 (⟨g.val, by omega⟩ : Fin 8) s k :=
    eq_ix3_of _ _ _ _ rfl rfl rfl
  have e2 : ridx_main_v7 (ix3 g s r) k = ix3 g r k := eq_ix3_of _ _ _ _ rfl rfl rfl
  rw [val_main_v6_apply, e1, e2, seg_apply x0 (⟨g.val, by omega⟩ : Fin 8) s k m hm]

/-- The second product: the intermediate row against row o of the segment's second factor. -/
theorem lo_up_apply (x0 : (⟨S16384x4096, .f32⟩ : BufTy).Contents (Elt Ideal)) (x3 : (⟨S4x16x4096, .f32⟩ : BufTy).Contents (Elt Ideal)) (x4 : (⟨S4x4096x16, .f32⟩ : BufTy).Contents (Elt Ideal)) (g : Fin 4) (s : Fin 2048) (o : Fin 4096) (m : Fin 16384)
    (hm : m.val = g.val * 2048 + s.val) :
    val_main_v8 (F := Ideal) x0 x3 x4 (ix3 g s o)
      = ∑ r : Fin 16, (∑ k : Fin 4096, x0 (ix2 m k) * x3 (ix3 g r k)) * x4 (ix3 g o r) := by
  rw [val_main_v8_apply]
  refine Finset.sum_congr rfl fun r _ => ?_
  have e1 : lidx_main_v8 (ix3 g s o) r = ix3 g s r := eq_ix3_of _ _ _ _ rfl rfl rfl
  have e2 : ridx_main_v8 (ix3 g s o) r = ix3 g o r := eq_ix3_of _ _ _ _ rfl rfl rfl
  rw [e1, e2, lo_down_apply x0 x3 g s r m hm]

/-- The segment's scalar, broadcast over the segment's rows and outputs. -/
theorem lo_scale_apply (x5 : (⟨S4, .f32⟩ : BufTy).Contents (Elt Ideal)) (g : Fin 4) (s : Fin 2048) (o : Fin 4096) :
    val_main_v10 (F := Ideal) x5 (ix3 g s o) = x5 (ix1 g) := by
  rw [val_main_v10_apply, val_main_v9_apply]
  exact congrArg x5 (eq_ix1_of _ _ rfl)

/-- The first group's term at (g, s, o). -/
theorem lo_apply (x0 : (⟨S16384x4096, .f32⟩ : BufTy).Contents (Elt Ideal)) (x3 : (⟨S4x16x4096, .f32⟩ : BufTy).Contents (Elt Ideal)) (x4 : (⟨S4x4096x16, .f32⟩ : BufTy).Contents (Elt Ideal)) (x5 : (⟨S4, .f32⟩ : BufTy).Contents (Elt Ideal)) (g : Fin 4) (s : Fin 2048) (o : Fin 4096) (m : Fin 16384)
    (hm : m.val = g.val * 2048 + s.val) :
    val_main_v11 (F := Ideal) x0 x3 x4 x5 (ix3 g s o)
      = (∑ r : Fin 16, (∑ k : Fin 4096, x0 (ix2 m k) * x3 (ix3 g r k)) * x4 (ix3 g o r)) * x5 (ix1 g) := by
  rw [val_main_v11_apply, lo_up_apply x0 x3 x4 g s o m hm, lo_scale_apply]
  rfl

/-! ## The second group (segments 4..7) -/

/-- The scaled tokens of segment 4 + g. -/
theorem hi_in_apply (x0 : (⟨S16384x4096, .f32⟩ : BufTy).Contents (Elt Ideal)) (x10 : (⟨S4, .f32⟩ : BufTy).Contents (Elt Ideal)) (g : Fin 4) (s : Fin 2048) (k : Fin 4096) (m : Fin 16384)
    (hm : m.val = (4 + g.val) * 2048 + s.val) :
    val_main_v15 (F := Ideal) x0 x10 (ix3 g s k) = x0 (ix2 m k) * x10 (ix1 g) := by
  rw [val_main_v15_apply, val_main_v12_apply, val_main_v14_apply, val_main_v13_apply]
  have e1 : idx_main_v12 (ix3 g s k) = ix3 (⟨4 + g.val, by omega⟩ : Fin 8) s k := eq_ix3_of _ _ _ _ rfl rfl rfl
  have e2 : idx_main_v13 (idx_main_v14 (ix3 g s k)) = ix1 g := eq_ix1_of _ _ rfl
  rw [e1, e2, seg_apply x0 (⟨4 + g.val, by omega⟩ : Fin 8) s k m hm]
  rfl

/-- The first product with its rank-wise scale. -/
theorem hi_down_apply (x0 : (⟨S16384x4096, .f32⟩ : BufTy).Contents (Elt Ideal)) (x6 : (⟨S4x16x4096, .f32⟩ : BufTy).Contents (Elt Ideal)) (x8 : (⟨S4x16, .f32⟩ : BufTy).Contents (Elt Ideal)) (x10 : (⟨S4, .f32⟩ : BufTy).Contents (Elt Ideal)) (g : Fin 4) (s : Fin 2048) (r : Fin 16) (m : Fin 16384)
    (hm : m.val = (4 + g.val) * 2048 + s.val) :
    val_main_v19 (F := Ideal) x0 x6 x8 x10 (ix3 g s r)
      = (∑ k : Fin 4096, (x0 (ix2 m k) * x10 (ix1 g)) * x6 (ix3 g r k)) * x8 (ix2 g r) := by
  rw [val_main_v19_apply, val_main_v16_apply, val_main_v18_apply, val_main_v17_apply]
  have e3 : idx_main_v17 (idx_main_v18 (ix3 g s r)) = ix2 g r := eq_ix2_of _ _ _ rfl rfl
  rw [e3]
  show (∑ k : Fin 4096, val_main_v15 (F := Ideal) x0 x10 (lidx_main_v16 (ix3 g s r) k) * x6 (ridx_main_v16 (ix3 g s r) k)) * x8 (ix2 g r) = _
  refine congrArg (· * x8 (ix2 g r)) (Finset.sum_congr rfl fun k _ => ?_)
  have e1 : lidx_main_v16 (ix3 g s r) k = ix3 g s k := eq_ix3_of _ _ _ _ rfl rfl rfl
  have e2 : ridx_main_v16 (ix3 g s r) k = ix3 g r k := eq_ix3_of _ _ _ _ rfl rfl rfl
  rw [e1, e2, hi_in_apply x0 x10 g s k m hm]

/-- The second group's term at (g, s, o). -/
theorem hi_apply (x0 : (⟨S16384x4096, .f32⟩ : BufTy).Contents (Elt Ideal)) (x6 : (⟨S4x16x4096, .f32⟩ : BufTy).Contents (Elt Ideal)) (x7 : (⟨S4x4096x16, .f32⟩ : BufTy).Contents (Elt Ideal)) (x8 : (⟨S4x16, .f32⟩ : BufTy).Contents (Elt Ideal)) (x9 : (⟨S4x4096, .f32⟩ : BufTy).Contents (Elt Ideal)) (x10 : (⟨S4, .f32⟩ : BufTy).Contents (Elt Ideal)) (g : Fin 4) (s : Fin 2048) (o : Fin 4096) (m : Fin 16384)
    (hm : m.val = (4 + g.val) * 2048 + s.val) :
    val_main_v23 (F := Ideal) x0 x6 x7 x8 x9 x10 (ix3 g s o)
      = (∑ r : Fin 16, ((∑ k : Fin 4096, (x0 (ix2 m k) * x10 (ix1 g)) * x6 (ix3 g r k)) * x8 (ix2 g r)) * x7 (ix3 g o r))
        * x9 (ix2 g o) := by
  rw [val_main_v23_apply, val_main_v20_apply, val_main_v22_apply, val_main_v21_apply]
  have e3 : idx_main_v21 (idx_main_v22 (ix3 g s o)) = ix2 g o := eq_ix2_of _ _ _ rfl rfl
  rw [e3]
  show (∑ r : Fin 16, val_main_v19 (F := Ideal) x0 x6 x8 x10 (lidx_main_v20 (ix3 g s o) r) * x7 (ridx_main_v20 (ix3 g s o) r)) * x9 (ix2 g o) = _
  refine congrArg (· * x9 (ix2 g o)) (Finset.sum_congr rfl fun r _ => ?_)
  have e1 : lidx_main_v20 (ix3 g s o) r = ix3 g s r := eq_ix3_of _ _ _ _ rfl rfl rfl
  have e2 : ridx_main_v20 (ix3 g s o) r = ix3 g o r := eq_ix3_of _ _ _ _ rfl rfl rfl
  rw [e1, e2, hi_down_apply x0 x6 x8 x10 g s r m hm]

/-! ## The join along the segment axis -/

/-- On segments 0..3 the join reads the first group. -/
theorem join_lo_apply (x0 : (⟨S16384x4096, .f32⟩ : BufTy).Contents (Elt Ideal)) (x3 : (⟨S4x16x4096, .f32⟩ : BufTy).Contents (Elt Ideal)) (x4 : (⟨S4x4096x16, .f32⟩ : BufTy).Contents (Elt Ideal)) (x5 : (⟨S4, .f32⟩ : BufTy).Contents (Elt Ideal)) (x6 : (⟨S4x16x4096, .f32⟩ : BufTy).Contents (Elt Ideal)) (x7 : (⟨S4x4096x16, .f32⟩ : BufTy).Contents (Elt Ideal)) (x8 : (⟨S4x16, .f32⟩ : BufTy).Contents (Elt Ideal)) (x9 : (⟨S4x4096, .f32⟩ : BufTy).Contents (Elt Ideal)) (x10 : (⟨S4, .f32⟩ : BufTy).Contents (Elt Ideal))
    (g : Fin 8) (h : g.val < 4) (s : Fin 2048) (o : Fin 4096) :
    val_main_v24 (F := Ideal) x0 x3 x4 x5 x6 x7 x8 x9 x10 (ix3 g s o)
      = val_main_v11 (F := Ideal) x0 x3 x4 x5 (ix3 (⟨g.val, h⟩ : Fin 4) s o) := by
  unfold val_main_v24
  exact concatenate_pair_apply_left (t := S8x2048x4096) (s₁ := S4x2048x4096) (s₂ := S4x2048x4096) (0 : Fin S8x2048x4096.rank) _ _ _ (ix3 g s o) rfl (ix3 (⟨g.val, h⟩ : Fin 4) s o)
    (fun b => match b with
      | ⟨0, _⟩ => rfl
      | ⟨1, _⟩ => rfl
      | ⟨2, _⟩ => rfl)

/-- On segments 4..7 the join reads the second group, four segments down. -/
theorem join_hi_apply (x0 : (⟨S16384x4096, .f32⟩ : BufTy).Contents (Elt Ideal)) (x3 : (⟨S4x16x4096, .f32⟩ : BufTy).Contents (Elt Ideal)) (x4 : (⟨S4x4096x16, .f32⟩ : BufTy).Contents (Elt Ideal)) (x5 : (⟨S4, .f32⟩ : BufTy).Contents (Elt Ideal)) (x6 : (⟨S4x16x4096, .f32⟩ : BufTy).Contents (Elt Ideal)) (x7 : (⟨S4x4096x16, .f32⟩ : BufTy).Contents (Elt Ideal)) (x8 : (⟨S4x16, .f32⟩ : BufTy).Contents (Elt Ideal)) (x9 : (⟨S4x4096, .f32⟩ : BufTy).Contents (Elt Ideal)) (x10 : (⟨S4, .f32⟩ : BufTy).Contents (Elt Ideal))
    (g : Fin 8) (h : ¬ g.val < 4) (s : Fin 2048) (o : Fin 4096) :
    val_main_v24 (F := Ideal) x0 x3 x4 x5 x6 x7 x8 x9 x10 (ix3 g s o)
      = val_main_v23 (F := Ideal) x0 x6 x7 x8 x9 x10 (ix3 (⟨g.val - 4, by omega⟩ : Fin 4) s o) := by
  unfold val_main_v24
  exact concatenate_pair_apply_right (t := S8x2048x4096) (s₁ := S4x2048x4096) (s₂ := S4x2048x4096) (0 : Fin S8x2048x4096.rank) _ _ _ (ix3 g s o) rfl rfl (ix3 (⟨g.val - 4, by omega⟩ : Fin 4) s o)
    (fun b hb => match b, hb with
      | ⟨0, _⟩, hb => absurd rfl hb
      | ⟨1, _⟩, _ => rfl
      | ⟨2, _⟩, _ => rfl)
    (by show (g.val - 4) + 4 = g.val; omega)

/-! ## The adapter term and the whole entry -/

/-- The join viewed as a matrix again: entry (n, o) is the adapter term of row n. -/
theorem adapter_apply (x0 : (⟨S16384x4096, .f32⟩ : BufTy).Contents (Elt Ideal)) (x3 : (⟨S4x16x4096, .f32⟩ : BufTy).Contents (Elt Ideal)) (x4 : (⟨S4x4096x16, .f32⟩ : BufTy).Contents (Elt Ideal)) (x5 : (⟨S4, .f32⟩ : BufTy).Contents (Elt Ideal)) (x6 : (⟨S4x16x4096, .f32⟩ : BufTy).Contents (Elt Ideal)) (x7 : (⟨S4x4096x16, .f32⟩ : BufTy).Contents (Elt Ideal)) (x8 : (⟨S4x16, .f32⟩ : BufTy).Contents (Elt Ideal)) (x9 : (⟨S4x4096, .f32⟩ : BufTy).Contents (Elt Ideal)) (x10 : (⟨S4, .f32⟩ : BufTy).Contents (Elt Ideal))
    (n : Fin 16384) (o : Fin 4096) :
    val_main_v25 (F := Ideal) x0 x3 x4 x5 x6 x7 x8 x9 x10 (ix2 n o) = delta x0 x3 x4 x5 x6 x7 x8 x9 x10 n o := by
  have e : idx_main_v25 (ix2 n o) = ix3 (seg n) (⟨n.val % 2048, by omega⟩ : Fin 2048) o := by
    refine eq_ix3_of _ _ _ _ ?_ ?_ ?_
    · show (n.val * 4096 + o.val) / 8388608 = n.val / 2048
      omega
    · show (n.val * 4096 + o.val) / 4096 % 2048 = n.val % 2048
      omega
    · show (n.val * 4096 + o.val) % 4096 = o.val
      omega
  rw [val_main_v25_apply, e]
  unfold delta
  by_cases h : (seg n).val < 4
  · rw [dif_pos h]
    refine (join_lo_apply x0 x3 x4 x5 x6 x7 x8 x9 x10 (seg n) h _ o).trans ?_
    exact lo_apply x0 x3 x4 x5 (⟨(seg n).val, h⟩ : Fin 4) (⟨n.val % 2048, by omega⟩ : Fin 2048) o n
      (by show n.val = n.val / 2048 * 2048 + n.val % 2048; omega)
  · rw [dif_neg h]
    refine (join_hi_apply x0 x3 x4 x5 x6 x7 x8 x9 x10 (seg n) h _ o).trans ?_
    exact hi_apply x0 x6 x7 x8 x9 x10 (⟨(seg n).val - 4, by have := (seg n).isLt; omega⟩ : Fin 4)
      (⟨n.val % 2048, by omega⟩ : Fin 2048) o n
      (by have h' : ¬ n.val / 2048 < 4 := h
          show n.val = (4 + (n.val / 2048 - 4)) * 2048 + n.val % 2048; omega)

/-- The reference's last stage at entry (n, o) is `staged` of the arguments. -/
theorem ref_apply (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (x3 : (⟨S4x16x4096, .f32⟩ : BufTy).Contents (Elt Ideal))
    (x4 : (⟨S4x4096x16, .f32⟩ : BufTy).Contents (Elt Ideal)) (x5 : (⟨S4, .f32⟩ : BufTy).Contents (Elt Ideal))
    (x6 : (⟨S4x16x4096, .f32⟩ : BufTy).Contents (Elt Ideal)) (x7 : (⟨S4x4096x16, .f32⟩ : BufTy).Contents (Elt Ideal))
    (x8 : (⟨S4x16, .f32⟩ : BufTy).Contents (Elt Ideal)) (x9 : (⟨S4x4096, .f32⟩ : BufTy).Contents (Elt Ideal))
    (x10 : (⟨S4, .f32⟩ : BufTy).Contents (Elt Ideal)) (n : Fin 16384) (o : Fin 4096) :
    (val_main_v26 (F := Ideal) x0 x1 x2 x3 x4 x5 x6 x7 x8 x9 x10 : S16384x4096.Idx → EReal) (ix2 n o)
      = staged x0 x1 x2 x3 x4 x5 x6 x7 x8 x9 x10 n o := by
  rw [val_main_v26_apply, base_apply, adapter_apply]
  rfl

end Cert.ReferenceIdeal.RefSide

end
-- ==== Proof.Finite.lean ====
/-
  From the precondition to "every entry of every argument is a real number".

  The precondition says that a conjunction of eleven tests, one per argument, is true; each test says that every
  entry's absolute value is below +infinity.  An extended real whose absolute value is below +infinity is neither
  infinity, hence a real number.
-/
import proofs.«148881_j16733192585553_1_alg».proof.Defs
import proofs.«148881_j16733192585553_1_alg».proof.Proof.Spec
import Idealize.ShloMosaic.Lib.ReduceAll
import Idealize.ShloMosaic.Lib.ValueIdx

noncomputable section

namespace Cert.Finite

open Cert.Adapter Idealize.ShloMosaic Idealize.ShloMosaic.ValueIdx Idealize.SL.Sem

/-- The shape of rank zero has exactly one index. -/
instance subsingleton_scalar_idx : Subsingleton Cert.Pre_finite_inputs.S_.Idx :=
  ⟨fun a b => funext fun d => d.elim0⟩

/-- The single-precision word `0x7F800000` (sign 0, exponent all ones, significand 0) denotes +infinity. -/
theorem ofBits_inf : Ideal.ofBits .f32 0x7F800000#32 = (⊤ : EReal) := by
  simp [Ideal.ofBits, Ideal.ieee]

/-- An extended real whose absolute value `max x (-x)` is strictly below +infinity is a real number:
    at `⊥` and at `⊤` the absolute value is `⊤`, which is not below itself. -/
theorem exists_real_of_abs_lt_top (x : EReal) (h : max x (-x) < ⊤) : ∃ r : ℝ, x = (r : EReal) := by
  induction x using EReal.rec with
  | bot => simp at h
  | coe r => exact ⟨r, rfl⟩
  | top => simp at h

/-- One test of the precondition, for an array `x` of any shape `S`: if the conjunction over all entries of
    `|x i| < +infinity` is true, then every entry of `x` is a real number.  The conjunction over all entries being
    true makes every single comparison true; a true comparison is the strict inequality; the inequality excludes
    both infinities. -/
theorem isReal_of_all_finite {S : Shape} {axes : List (Fin S.rank)}
    (hb : Cert.Pre_finite_inputs.S_.BroadcastsInDim S (![] : Fin 0 → Fin S.rank))
    (hr : S.ReducesTo axes Cert.Pre_finite_inputs.S_) (hu : 0 < Cert.Pre_finite_inputs.S_.numel)
    (x : FVec Ideal S .f32) (j : Cert.Pre_finite_inputs.S_.Idx)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu j = 1#1) :
    IsReal (ι := S.Idx) x := by
  intro i
  have hi := Host.reduce_andi_all _ _ hr hu j e i
  have hc : Ideal.cmp .olt (max (x i) (-(x i))) (Ideal.ofBits .f32 0x7F800000#32) = 1#1 := hi
  rw [ofBits_inf] at hc
  have hlt : max (x i) (-(x i)) < (⊤ : EReal) := by
    by_contra hn
    simp [Ideal.cmp, hn] at hc
  exact exists_real_of_abs_lt_top _ hlt

variable [hPre_finite_inputs : Cert.Pre_finite_inputs.Facts] [hKernelIdeal : Cert.KernelIdeal.Facts]

/-- Under the precondition every argument of the idealized kernel has only real entries. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    IsReal (ι := Cert.KernelIdeal.S16384x4096.Idx) (m ((c.tc : Thread Cert.KernelIdeal.nD Cert.KernelIdeal.τ).loc Cert.KernelIdeal.main_arg0))
    ∧ IsReal (ι := Cert.KernelIdeal.S4096x4096.Idx) (m ((c.tc : Thread Cert.KernelIdeal.nD Cert.KernelIdeal.τ).loc Cert.KernelIdeal.main_arg1))
    ∧ IsReal (ι := Cert.KernelIdeal.S4096.Idx) (m ((c.tc : Thread Cert.KernelIdeal.nD Cert.KernelIdeal.τ).loc Cert.KernelIdeal.main_arg2))
    ∧ IsReal (ι := Cert.KernelIdeal.S4x16x4096.Idx) (m ((c.tc : Thread Cert.KernelIdeal.nD Cert.KernelIdeal.τ).loc Cert.KernelIdeal.main_arg3))
    ∧ IsReal (ι := Cert.KernelIdeal.S4x4096x16.Idx) (m ((c.tc : Thread Cert.KernelIdeal.nD Cert.KernelIdeal.τ).loc Cert.KernelIdeal.main_arg4))
    ∧ IsReal (ι := Cert.KernelIdeal.S4.Idx) (m ((c.tc : Thread Cert.KernelIdeal.nD Cert.KernelIdeal.τ).loc Cert.KernelIdeal.main_arg5))
    ∧ IsReal (ι := Cert.KernelIdeal.S4x16x4096.Idx) (m ((c.tc : Thread Cert.KernelIdeal.nD Cert.KernelIdeal.τ).loc Cert.KernelIdeal.main_arg6))
    ∧ IsReal (ι := Cert.KernelIdeal.S4x4096x16.Idx) (m ((c.tc : Thread Cert.KernelIdeal.nD Cert.KernelIdeal.τ).loc Cert.KernelIdeal.main_arg7))
    ∧ IsReal (ι := Cert.KernelIdeal.S4x16.Idx) (m ((c.tc : Thread Cert.KernelIdeal.nD Cert.KernelIdeal.τ).loc Cert.KernelIdeal.main_arg8))
    ∧ IsReal (ι := Cert.KernelIdeal.S4x4096.Idx) (m ((c.tc : Thread Cert.KernelIdeal.nD Cert.KernelIdeal.τ).loc Cert.KernelIdeal.main_arg9))
    ∧ IsReal (ι := Cert.KernelIdeal.S4.Idx) (m ((c.tc : Thread Cert.KernelIdeal.nD Cert.KernelIdeal.τ).loc Cert.KernelIdeal.main_arg10)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  -- the ten conjunctions, outermost (the last argument's test) first
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- each test, read back as "every entry is real"
  exact ⟨isReal_of_all_finite (S := Cert.Pre_finite_inputs.S16384x4096) _ _ _ _ ix0 e0,
    isReal_of_all_finite (S := Cert.Pre_finite_inputs.S4096x4096) _ _ _ _ ix0 e1,
    isReal_of_all_finite (S := Cert.Pre_finite_inputs.S4096) _ _ _ _ ix0 e2,
    isReal_of_all_finite (S := Cert.Pre_finite_inputs.S4x16x4096) _ _ _ _ ix0 e3,
    isReal_of_all_finite (S := Cert.Pre_finite_inputs.S4x4096x16) _ _ _ _ ix0 e4,
    isReal_of_all_finite (S := Cert.Pre_finite_inputs.S4) _ _ _ _ ix0 e5,
    isReal_of_all_finite (S := Cert.Pre_finite_inputs.S4x16x4096) _ _ _ _ ix0 e6,
    isReal_of_all_finite (S := Cert.Pre_finite_inputs.S4x4096x16) _ _ _ _ ix0 e7,
    isReal_of_all_finite (S := Cert.Pre_finite_inputs.S4x16) _ _ _ _ ix0 e8,
    isReal_of_all_finite (S := Cert.Pre_finite_inputs.S4x4096) _ _ _ _ ix0 e9,
    isReal_of_all_finite (S := Cert.Pre_finite_inputs.S4) _ _ _ _ ix0 e10⟩

end Cert.Finite

end
-- ==== Proof.lean ====
/-
  Kernel and reference compute the same function of their eleven arguments over the extended reals.

  Both add to the base product  x · Wᵀ + bias  a per-segment low-rank term: token row n belongs to segment n / 2048;
  segments 0..3 use the first adapter group (factors la, lb and a scalar ls), segments 4..7 the second (factors va,
  vb, a scalar vs, a rank-wise scale vd and an output-wise scale vbv).

  The kernel multiplies every scale INTO the two factors on the host, then runs one grid of 16 x 4 x 4 points: for
  each block of 1024 token rows and 1024 output columns, four steps accumulate the base product and the hidden
  product (token rows against the first factor) over runs of 1024 contraction positions, and the last step writes
  base + hidden x second factor + bias.  Entry by entry this is the arrangement `folded` (the four runs put back
  together; no law beyond associativity and commutativity of addition is used).

  The reference applies the scales to the intermediate results, stage by stage: the arrangement `staged`.

  The two arrangements agree when every entry of every argument is a real number, which the precondition says:
  then a common factor moves across a finite sum.  On infinite entries that law fails, so the precondition is used.

  Each program's frame is its run with the result dropped; the idealization rewrote nothing, so `preserves` is trivial.
-/
import proofs.«148881_j16733192585553_1_alg».proof.Defs
import proofs.«148881_j16733192585553_1_alg».proof.Proof.Gen.Kernel
import proofs.«148881_j16733192585553_1_alg».proof.Proof.Gen.Kernel.Skeleton
import proofs.«148881_j16733192585553_1_alg».proof.Proof.Gen.Kernel.Launch
import proofs.«148881_j16733192585553_1_alg».proof.Proof.Gen.Kernel.Points
import proofs.«148881_j16733192585553_1_alg».proof.Proof.Gen.Kernel.Frame
import proofs.«148881_j16733192585553_1_alg».proof.Proof.Gen.KernelIdeal
import proofs.«148881_j16733192585553_1_alg».proof.Proof.Gen.KernelIdeal.Skeleton
import proofs.«148881_j16733192585553_1_alg».proof.Proof.Gen.KernelIdeal.Launch
import proofs.«148881_j16733192585553_1_alg».proof.Proof.Gen.KernelIdeal.Points
import proofs.«148881_j16733192585553_1_alg».proof.Proof.Gen.KernelIdeal.Frame
import proofs.«148881_j16733192585553_1_alg».proof.Proof.Gen.ReferenceIdeal
import proofs.«148881_j16733192585553_1_alg».proof.Proof.Gen.Pre_finite_inputs
import proofs.«148881_j16733192585553_1_alg».proof.Proof.Gen.KernelIdeal.Value
import proofs.«148881_j16733192585553_1_alg».proof.Proof.Gen.ReferenceIdeal.Run
import proofs.«148881_j16733192585553_1_alg».proof.Proof.Gen.ReferenceIdeal.Read
import proofs.«148881_j16733192585553_1_alg».proof.Proof.Spec
import proofs.«148881_j16733192585553_1_alg».proof.Proof.KFinal
import proofs.«148881_j16733192585553_1_alg».proof.Proof.RefSide
import proofs.«148881_j16733192585553_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array is `folded` of its arguments, the reference's is `staged` of the same arguments, and on
    real arguments the two are equal. -/
theorem algebraic : Cert.algebraic_KernelIdeal_ReferenceIdeal := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  obtain ⟨r0, r1, r2, r3, r4, r5, r6, r7, r8, r9, r10⟩ := Cert.Finite.real_of_pre m hpre c
  rw [a0, a1, a2, a3, a4, a5, a6, a7, a8, a9, a10]
  funext i
  obtain ⟨n, o, rfl⟩ : ∃ (n : Fin 16384) (o : Fin 4096), i = ix2 n o := ⟨i 0, i 1, eq_ix2 i⟩
  refine (Cert.ReferenceIdeal.RefSide.ref_apply _ _ _ _ _ _ _ _ _ _ _ n o).trans ?_
  exact (Cert.Adapter.folded_eq_staged _ _ _ _ _ _ _ _ _ _ _ r0 r1 r2 r3 r4 r5 r6 r7 r8 r9 r10 n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
